-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x1024x64 : Shape := ⟨4, ![4, 12, 1024, 64]⟩
abbrev S4x12x1024x1024 : Shape := ⟨4, ![4, 12, 1024, 1024]⟩
abbrev S_ : Shape := ⟨0, ![]⟩

class Facts : Prop where
  bcast_S_S4x12x1024x64 : S_.BroadcastsInDim S4x12x1024x64 (![] : Fin 0 → Fin S4x12x1024x64.rank)
  reducesTo_S4x12x1024x64_S_d0_1_2_3 : S4x12x1024x64.ReducesTo [0, 1, 2, 3] S_
  h_S_ : 0 < S_.numel
  bcast_S_S4x12x1024x1024 : S_.BroadcastsInDim S4x12x1024x1024 (![] : Fin 0 → Fin S4x12x1024x1024.rank)
  reducesTo_S4x12x1024x1024_S_d0_1_2_3 : S4x12x1024x1024.ReducesTo [0, 1, 2, 3] S_

variable [Facts]

def fn_part1 {F : FTy → Type} [FloatOps F] (main_v13 : IVec S_ 1) (main_v16 : IVec S4x12x1024x1024 1) : IVec S_ 1 :=
  let main_c_5 : IVec S_ 1 := constantI S_ 1 1#1
  let main_v17 : IVec S_ 1 := (fun x v => Host.reduce IntOp.andi x v reducesTo_S4x12x1024x1024_S_d0_1_2_3 h_S_) main_v16 main_c_5
  let main_v18 : IVec S_ 1 := andi main_v13 main_v17
  main_v18

def fn {F : FTy → Type} [FloatOps F] (main_arg0 : FVec F S4x12x1024x64 .f32) (main_arg1 : FVec F S4x12x1024x64 .f32) (main_arg2 : FVec F S4x12x1024x64 .f32) (main_arg3 : IVec S4x12x1024x1024 1) (main_arg4 : FVec F S4x12x1024x1024 .f32) : IVec S_ 1 :=
  let main_v0 : FVec F S4x12x1024x64 .f32 := Host.absf main_arg0
  let main_cst : FVec F S_ .f32 := constant S_ .f32 0x7F800000#32
  let main_v1 : FVec F S4x12x1024x64 .f32 := broadcastInDim S4x12x1024x64 ![] bcast_S_S4x12x1024x64 main_cst
  let main_v2 : IVec S4x12x1024x64 1 := cmpf .olt main_v0 main_v1
  let main_c : IVec S_ 1 := constantI S_ 1 1#1
  let main_v3 : IVec S_ 1 := (fun x v => Host.reduce IntOp.andi x v reducesTo_S4x12x1024x64_S_d0_1_2_3 h_S_) main_v2 main_c
  let main_v4 : FVec F S4x12x1024x64 .f32 := Host.absf main_arg1
  let main_cst_0 : FVec F S_ .f32 := constant S_ .f32 0x7F800000#32
  let main_v5 : FVec F S4x12x1024x64 .f32 := broadcastInDim S4x12x1024x64 ![] bcast_S_S4x12x1024x64 main_cst_0
  let main_v6 : IVec S4x12x1024x64 1 := cmpf .olt main_v4 main_v5
  let main_c_1 : IVec S_ 1 := constantI S_ 1 1#1
  let main_v7 : IVec S_ 1 := (fun x v => Host.reduce IntOp.andi x v reducesTo_S4x12x1024x64_S_d0_1_2_3 h_S_) main_v6 main_c_1
  let main_v8 : IVec S_ 1 := andi main_v3 main_v7
  let main_v9 : FVec F S4x12x1024x64 .f32 := Host.absf main_arg2
  let main_cst_2 : FVec F S_ .f32 := constant S_ .f32 0x7F800000#32
  let main_v10 : FVec F S4x12x1024x64 .f32 := broadcastInDim S4x12x1024x64 ![] bcast_S_S4x12x1024x64 main_cst_2
  let main_v11 : IVec S4x12x1024x64 1 := cmpf .olt main_v9 main_v10
  let main_c_3 : IVec S_ 1 := constantI S_ 1 1#1
  let main_v12 : IVec S_ 1 := (fun x v => Host.reduce IntOp.andi x v reducesTo_S4x12x1024x64_S_d0_1_2_3 h_S_) main_v11 main_c_3
  let main_v13 : IVec S_ 1 := andi main_v8 main_v12
  let main_v14 : FVec F S4x12x1024x1024 .f32 := Host.absf main_arg4
  let main_cst_4 : FVec F S_ .f32 := constant S_ .f32 0x7F800000#32
  let main_v15 : FVec F S4x12x1024x1024 .f32 := broadcastInDim S4x12x1024x1024 ![] bcast_S_S4x12x1024x1024 main_cst_4
  let main_v16 : IVec S4x12x1024x1024 1 := cmpf .olt main_v14 main_v15
  fn_part1 (F := F) main_v13 main_v16
-- ==== Kernel.lean ====
abbrev S4x12x1024x64 : Shape := ⟨4, ![4, 12, 1024, 64]⟩
abbrev S4x12x1024x1024 : Shape := ⟨4, ![4, 12, 1024, 1024]⟩
abbrev S48x1024x64 : Shape := ⟨3, ![48, 1024, 64]⟩
abbrev S48x1024x1024 : Shape := ⟨3, ![48, 1024, 1024]⟩
abbrev S1x256x64 : Shape := ⟨3, ![1, 256, 64]⟩
abbrev S1x1024x64 : Shape := ⟨3, ![1, 1024, 64]⟩
abbrev S1x256x1024 : Shape := ⟨3, ![1, 256, 1024]⟩
abbrev S256x64 : Shape := ⟨2, ![256, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S4x12x1024x64, .f32⟩
  | .hbm, ⟨1, _⟩ => ⟨S4x12x1024x64, .f32⟩
  | .hbm, ⟨2, _⟩ => ⟨S4x12x1024x64, .f32⟩
  | .hbm, ⟨3, _⟩ => ⟨S4x12x1024x1024, .i1⟩
  | .hbm, ⟨4, _⟩ => ⟨S4x12x1024x1024, .f32⟩
  | .hbm, ⟨5, _⟩ => ⟨S48x1024x64, .f32⟩
  | .hbm, ⟨6, _⟩ => ⟨S48x1024x64, .f32⟩
  | .hbm, ⟨7, _⟩ => ⟨S48x1024x64, .f32⟩
  | .hbm, ⟨8, _⟩ => ⟨S48x1024x1024, .i1⟩
  | .hbm, ⟨9, _⟩ => ⟨S48x1024x1024, .f32⟩
  | .hbm, ⟨10, _⟩ => ⟨S48x1024x1024, .i32⟩
  | .hbm, ⟨11, _⟩ => ⟨S48x1024x64, .f32⟩
  | .hbm, ⟨12, _⟩ => ⟨S48x1024x1024, .f32⟩
  | .hbm, ⟨13, _⟩ => ⟨S4x12x1024x64, .f32⟩
  | .hbm, ⟨14, _⟩ => ⟨S4x12x1024x1024, .f32⟩
  | .local _ .vmem, ⟨0, _⟩ => ⟨S1x256x64, .f32⟩
  | .local _ .vmem, ⟨1, _⟩ => ⟨S1x256x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x256x1024, .i32⟩
  | .local _ .vmem, ⟨7, _⟩ => ⟨S1x256x1024, .i32⟩
  | .local _ .vmem, ⟨8, _⟩ => ⟨S1x256x1024, .f32⟩
  | .local _ .vmem, ⟨9, _⟩ => ⟨S1x256x1024, .f32⟩
  | .local _ .vmem, ⟨10, _⟩ => ⟨S1x256x64, .f32⟩
  | .local _ .vmem, ⟨11, _⟩ => ⟨S1x256x64, .f32⟩
  | .local _ .vmem, ⟨12, _⟩ => ⟨S1x256x1024, .f32⟩
  | .local _ .vmem, ⟨13, _⟩ => ⟨S1x256x1024, .f32⟩
  | _, _ => ⟨S4x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![48, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S4x12x1024x64_S48x1024x64 : S4x12x1024x64.ShapeCasts S48x1024x64
  shapeCasts_S4x12x1024x1024_S48x1024x1024 : S4x12x1024x1024.ShapeCasts S48x1024x1024
  natLt_1_32 : 1 < 32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  shapeCasts_S256x64_S1x256x64 : S256x64.ShapeCasts S1x256x64
  shapeCasts_S48x1024x64_S4x12x1024x64 : S48x1024x64.ShapeCasts S4x12x1024x64
  shapeCasts_S48x1024x1024_S4x12x1024x1024 : S48x1024x1024.ShapeCasts S4x12x1024x1024
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S48x1024x64.size a
  hwx0_0 : ∀ i : grid0.Coords, EltTy.bits .f32 = 32 ∨ (Rect.block (s := S48x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S48x1024x64.size a
  hwx0_1 : ∀ i : grid0.Coords, EltTy.bits .f32 = 32 ∨ (Rect.block (s := S48x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S48x1024x64.size a
  hwx0_2 : ∀ i : grid0.Coords, EltTy.bits .f32 = 32 ∨ (Rect.block (s := S48x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S48x1024x1024.size a
  hwx0_3 : ∀ i : grid0.Coords, EltTy.bits .i32 = 32 ∨ (Rect.block (s := S48x1024x1024) S1x256x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S48x1024x1024.size a
  hwx0_4 : ∀ i : grid0.Coords, EltTy.bits .f32 = 32 ∨ (Rect.block (s := S48x1024x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S48x1024x64.size a
  hwx0_5 : ∀ i : grid0.Coords, EltTy.bits .f32 = 32 ∨ (Rect.block (s := S48x1024x64) S1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S48x1024x1024.size a
  hwx0_6 : ∀ i : grid0.Coords, EltTy.bits .f32 = 32 ∨ (Rect.block (s := S48x1024x1024) S1x256x1024.size (cc0_transform_6 i) (hinb0_6 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x12x1024x64 : Shape := ⟨4, ![4, 12, 1024, 64]⟩
abbrev S4x12x1024x1024 : Shape := ⟨4, ![4, 12, 1024, 1024]⟩
abbrev S_ : Shape := ⟨0, ![]⟩
abbrev S4x12x1024 : Shape := ⟨3, ![4, 12, 1024]⟩
abbrev S4x12x1024x1 : Shape := ⟨4, ![4, 12, 1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x12x1024x64, .f32⟩
  | .hbm, ⟨1, _⟩ => ⟨S4x12x1024x64, .f32⟩
  | .hbm, ⟨2, _⟩ => ⟨S4x12x1024x64, .f32⟩
  | .hbm, ⟨3, _⟩ => ⟨S4x12x1024x1024, .i1⟩
  | .hbm, ⟨4, _⟩ => ⟨S4x12x1024x1024, .f32⟩
  | .hbm, ⟨5, _⟩ => ⟨S4x12x1024x1024, .f32⟩
  | .hbm, ⟨6, _⟩ => ⟨S_, .f32⟩
  | .hbm, ⟨7, _⟩ => ⟨S_, .f32⟩
  | .hbm, ⟨8, _⟩ => ⟨S4x12x1024x1024, .f32⟩
  | .hbm, ⟨9, _⟩ => ⟨S4x12x1024x1024, .f32⟩
  | .hbm, ⟨10, _⟩ => ⟨S_, .f32⟩
  | .hbm, ⟨11, _⟩ => ⟨S4x12x1024x1024, .f32⟩
  | .hbm, ⟨12, _⟩ => ⟨S4x12x1024x1024, .f32⟩
  | .hbm, ⟨13, _⟩ => ⟨S_, .f32⟩
  | .hbm, ⟨14, _⟩ => ⟨S4x12x1024x1024, .f32⟩
  | .hbm, ⟨15, _⟩ => ⟨S4x12x1024x1024, .i1⟩
  | .hbm, ⟨16, _⟩ => ⟨S4x12x1024x1024, .f32⟩
  | .hbm, ⟨17, _⟩ => ⟨S_, .f32⟩
  | .hbm, ⟨18, _⟩ => ⟨S4x12x1024x1024, .f32⟩
  | .hbm, ⟨19, _⟩ => ⟨S4x12x1024x1024, .f32⟩
  | .hbm, ⟨20, _⟩ => ⟨S_, .f32⟩
  | .hbm, ⟨21, _⟩ => ⟨S4x12x1024x1024, .f32⟩
  | .hbm, ⟨22, _⟩ => ⟨S4x12x1024x1024, .f32⟩
  | .hbm, ⟨23, _⟩ => ⟨S_, .f32⟩
  | .hbm, ⟨24, _⟩ => ⟨S4x12x1024x1024, .f32⟩
  | .hbm, ⟨25, _⟩ => ⟨S4x12x1024x1024, .f32⟩
  | .hbm, ⟨26, _⟩ => ⟨S4x12x1024x1024, .f32⟩
  | .hbm, ⟨27, _⟩ => ⟨S4x12x1024x1024, .f32⟩
  | .hbm, ⟨28, _⟩ => ⟨S4x12x1024x1024, .f32⟩
  | .hbm, ⟨29, _⟩ => ⟨S4x12x1024x1024, .f32⟩
  | .hbm, ⟨30, _⟩ => ⟨S_, .f32⟩
  | .hbm, ⟨31, _⟩ => ⟨S4x12x1024, .f32⟩
  | .hbm, ⟨32, _⟩ => ⟨S_, .f32⟩
  | .hbm, ⟨33, _⟩ => ⟨S4x12x1024, .f32⟩
  | .hbm, ⟨34, _⟩ => ⟨S4x12x1024, .f32⟩
  | .hbm, ⟨35, _⟩ => ⟨S4x12x1024x1, .f32⟩
  | .hbm, ⟨36, _⟩ => ⟨S4x12x1024x1024, .f32⟩
  | .hbm, ⟨37, _⟩ => ⟨S4x12x1024x1024, .f32⟩
  | .hbm, ⟨38, _⟩ => ⟨S4x12x1024x1024, .f32⟩
  | .hbm, ⟨39, _⟩ => ⟨S_, .f32⟩
  | .hbm, ⟨40, _⟩ => ⟨S4x12x1024, .f32⟩
  | .hbm, ⟨41, _⟩ => ⟨S4x12x1024x1, .f32⟩
  | .hbm, ⟨42, _⟩ => ⟨S4x12x1024x1024, .f32⟩
  | .hbm, ⟨43, _⟩ => ⟨S4x12x1024x1024, .f32⟩
  | .hbm, ⟨44, _⟩ => ⟨S4x12x1024x64, .f32⟩
  | _, _ => ⟨S4x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S4x12x1024x1024 : S_.BroadcastsInDim S4x12x1024x1024 (![] : Fin 0 → Fin S4x12x1024x1024.rank)
  reducesTo_S4x12x1024x1024_S4x12x1024_d3 : S4x12x1024x1024.ReducesTo [3] S4x12x1024
  h_S_ : 0 < S_.numel
  bcast_S_S4x12x1024 : S_.BroadcastsInDim S4x12x1024 (![] : Fin 0 → Fin S4x12x1024.rank)
  bcast_S4x12x1024_S4x12x1024x1_0_1_2 : S4x12x1024.BroadcastsInDim S4x12x1024x1 (![0, 1, 2] : Fin 3 → Fin S4x12x1024x1.rank)
  bcast_S4x12x1024x1_S4x12x1024x1024_0_1_2_3 : S4x12x1024x1.BroadcastsInDim S4x12x1024x1024 (![0, 1, 2, 3] : Fin 4 → Fin S4x12x1024x1024.rank)
  dot_S4x12x1024x64_S4x12x1024x64_S4x12x1024x1024_3_3_2_2_01_01_wf : DotDims.WF S4x12x1024x64 S4x12x1024x64 S4x12x1024x1024 [3] [3] [2] [2] [0, 1] [0, 1]
  dot_S4x12x1024x1024_S4x12x1024x64_S4x12x1024x64_3_2_2_3_01_01_wf : DotDims.WF S4x12x1024x1024 S4x12x1024x64 S4x12x1024x64 [3] [2] [2] [3] [0, 1] [0, 1]

variable [Facts₀]

def dot_S4x12x1024x64_S4x12x1024x64_S4x12x1024x1024_3_3_2_2_01_01 : DotDims S4x12x1024x64 S4x12x1024x64 S4x12x1024x1024 where
  lhsContracting := [3]
  rhsContracting := [3]
  lhsNonContracting := [2]
  rhsNonContracting := [2]
  lhsBatch := [0, 1]
  rhsBatch := [0, 1]
  wf := dot_S4x12x1024x64_S4x12x1024x64_S4x12x1024x1024_3_3_2_2_01_01_wf
def dot_S4x12x1024x1024_S4x12x1024x64_S4x12x1024x64_3_2_2_3_01_01 : DotDims S4x12x1024x1024 S4x12x1024x64 S4x12x1024x64 where
  lhsContracting := [3]
  rhsContracting := [2]
  lhsNonContracting := [2]
  rhsNonContracting := [3]
  lhsBatch := [0, 1]
  rhsBatch := [0, 1]
  wf := dot_S4x12x1024x1024_S4x12x1024x64_S4x12x1024x64_3_2_2_3_01_01_wf

class Facts : Prop extends Facts₀ where

variable [Facts]
-- ==== Proof.LibRowOps.lean ====
/-
  Reductions along the rows of an [R, L] array, and the column they leave, read at an index over the extended reals.
  A kernel reduces a block's rows with a lane reduction into an [R] vector, casts it to a column [R, 1] and broadcasts the
  column back over the L lanes; a host program reduces the array over axis 1. Each spelling is read here at a row p (and a
  lane c) as a fold or a sum over the row's entries x (p, k), for any extents.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

variable {R L : Nat} {φ : FTy}

/-- The source index over the reduced index p with k inserted on axis 1 is (p, k). -/
theorem lift_row (h : Shape.Reduces ⟨2, ![R, L]⟩ [1] ⟨1, ![R]⟩) (p : Fin R) (k : Fin L) :
    h.lift (ix1 p) k = ix2 p k := by
  funext a
  apply Fin.ext
  match a with
  | ⟨0, _⟩ => rfl
  | ⟨1, _⟩ => rfl

/-- A lane maximum of an [R, L] block at row p: the fold of max from the accumulator's value over the row. -/
theorem laneMax_apply (x : FVec Ideal ⟨2, ![R, L]⟩ φ) (acc : BitVec φ.bits)
    (h : Shape.Reduces ⟨2, ![R, L]⟩ [1] ⟨1, ![R]⟩) (hφ : FKind.Formats φ) (hacc : acc = FKind.maximumf.neutral φ hφ)
    (p : Fin R) :
    multiReduction .maximumf [1] ⟨1, ![R]⟩ x acc h hφ hacc (ix1 p)
      = (Finset.univ : Finset (Fin L)).fold max (Ideal.ofBits φ acc) (fun k => x (ix2 p k)) := by
  rw [Ideal.multiReduction_maximumf_single]
  have e : (x ∘ h.lift (ix1 p)) = fun k : Fin ((⟨2, ![R, L]⟩ : Shape).size 1) => x (ix2 p k) :=
    funext fun k => congrArg x (lift_row h p k)
  rw [e]
  rfl

/-- A lane sum of an [R, L] block at row p: the sum of the row. -/
theorem laneSum_apply (x : FVec Ideal ⟨2, ![R, L]⟩ φ) (acc : BitVec φ.bits)
    (h : Shape.Reduces ⟨2, ![R, L]⟩ [1] ⟨1, ![R]⟩) (hφ : FKind.Formats φ) (hacc : acc = FKind.add.neutral φ hφ)
    (p : Fin R) :
    multiReduction .add [1] ⟨1, ![R]⟩ x acc h hφ hacc (ix1 p) = ∑ k : Fin L, x (ix2 p k) := by
  rw [Ideal.multiReduction_add_single]
  show ∑ k : Fin L, x (h.lift (ix1 p) k) = _
  exact Finset.sum_congr rfl fun k _ => congrArg x (lift_row h p k)

/-- The host's maximum over axis 1 at row p: the fold of max from the initial value over the row. -/
theorem hostRowMax_apply {u : Shape} (x : (⟨2, ![R, L]⟩ : Shape).Idx → Ideal φ) (init : u.Idx → Ideal φ)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduce FloatOps.maximumf x init h' hu (ix1 p)
      = (Finset.univ : Finset (Fin L)).fold max (init (Shape.Idx.first hu)) (fun k => x (ix2 p k)) := by
  rw [Host.reduce_eq_fold_single FloatOps.maximumf x init h' h hu]
  have e : (x ∘ h.lift (ix1 p)) = fun k : Fin ((⟨2, ![R, L]⟩ : Shape).size 1) => x (ix2 p k) :=
    funext fun k => congrArg x (lift_row h p k)
  rw [e]
  rfl

/-- An [R] vector cast to a column [R, 1], at (p, 0). -/
theorem shapeCast_column_apply {α : Type} (v : (⟨1, ![R]⟩ : Shape).Idx → α)
    (h : (⟨1, ![R]⟩ : Shape).ShapeCasts ⟨2, ![R, 1]⟩) (p : Fin R) (z : Fin 1) :
    shapeCast ⟨2, ![R, 1]⟩ v h (ix2 p z) = v (ix1 p) := by
  refine shapeCast_apply v h (ix2 p z) (ix1 p) ?_
  rw [Shape.rowMajor_val_two, Shape.rowMajor_val_one]
  show p.val = p.val * 1 + z.val
  have := z.isLt
  omega

/-- A column [R, 1] broadcast over L lanes, at (p, c): the column's entry at row p. -/
theorem broadcastTo_column_apply {α : Type} (v : (⟨2, ![R, 1]⟩ : Shape).Idx → α)
    (h : (⟨2, ![R, 1]⟩ : Shape).Broadcasts ⟨2, ![R, L]⟩) (p : Fin R) (c : Fin L) :
    broadcastTo ⟨2, ![R, L]⟩ v h (ix2 p c) = v (ix2 p (0 : Fin 1)) := by
  refine broadcastTo_apply v h (ix2 p c) (ix2 p (0 : Fin 1)) fun ax => ?_
  match ax with
  | ⟨0, _⟩ =>
    show p.val = if R = 1 then 0 else p.val
    split
    · have := p.isLt; omega
    · rfl
  | ⟨1, _⟩ => rfl

/-- A one-entry array [1, 1] broadcast to [R, L], at any index: its entry. -/
theorem broadcastTo_one_apply {α : Type} (v : (⟨2, ![1, 1]⟩ : Shape).Idx → α)
    (h : (⟨2, ![1, 1]⟩ : Shape).Broadcasts ⟨2, ![R, L]⟩) (p : Fin R) (c : Fin L) :
    broadcastTo ⟨2, ![R, L]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib

end
-- ==== Proof.LibRowSoftmax.lean ====
/-
  The softmax of each row of an [R, L] array over the extended reals, in a kernel's spelling and in a host program's,
  each read at an entry (p, q), for any extents.
  Both spellings subtract from the row its maximum (a fold of max started at the f32 word of -∞, joined once more with
  that word), exponentiate, and divide by the row's sum of exponentials. A kernel takes the maximum and the sum by lane
  reductions into [R], casts to a column [R, 1] and broadcasts the column over the lanes; a host program reduces over
  axis 1 from a rank-0 initial value and broadcasts [R] → [R, 1] → [R, L]. At an entry both are the one row function
  `rowSoftmax` of the row's entries.
-/
import proofs.«149106_j44976897524605_1_alg».proof.Proof.LibRowOps

noncomputable section

namespace Cert.Lib

open Idealize.ShloMosaic Idealize.ShloMosaic.ValueIdx

variable {R L : Nat}

/-- A row's maximum as both programs take it: the fold of max over the row from the word of -∞, joined with that word. -/
def rowTop (x : Fin L → EReal) : EReal :=
  max (Ideal.ofBits .f32 0xFF800000#32) ((Finset.univ : Finset (Fin L)).fold max (Ideal.ofBits .f32 0xFF800000#32) x)

/-- The softmax of a row: exp (x i − top) over the sum of the row's exp (x l − top), by the total division. -/
def rowSoftmax (x : Fin L → EReal) (i : Fin L) : EReal :=
  Ideal.div (Ideal.exp (x i - rowTop x)) (∑ l : Fin L, Ideal.exp (x l - rowTop x))

/-! ## The kernel's spelling -/

/-- The kernel's row maximum, carried back to every lane of its row. -/
theorem laneTop_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    broadcastTo ⟨2, ![R, L]⟩ (shapeCast ⟨2, ![R, 1]⟩ (maximumf (broadcast ⟨1, ![R]⟩ (FloatOps.ofBits .f32 0xFF800000#32))
        (multiReduction .maximumf [1] ⟨1, ![R]⟩ x 0xFF800000#32 hr hφ hmax)) hc) hb (ix2 p q)
      = rowTop fun k => x (ix2 p k) := by
  rw [broadcastTo_column_apply, shapeCast_column_apply, maximumf_apply, broadcast_apply, laneMax_apply]
  rfl

/-- The kernel's softmax of a block's rows, at (p, q). -/
theorem laneSoftmax_apply (x : FVec Ideal ⟨2, ![R, L]⟩ .f32)
    (hr : Shape.Reduces ⟨2, ![R, L]⟩ [1] ⟨1, ![R]⟩) (hφ : FKind.Formats .f32)
    (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, L]⟩)
    (p : Fin R) (q : Fin L) :
    divf
        (exp (subf x (broadcastTo ⟨2, ![R, L]⟩ (shapeCast ⟨2, ![R, 1]⟩ (maximumf (broadcast ⟨1, ![R]⟩ (FloatOps.ofBits .f32 0xFF800000#32))
          (multiReduction .maximumf [1] ⟨1, ![R]⟩ x 0xFF800000#32 hr hφ hmax)) hc) hb)))
        (broadcastTo ⟨2, ![R, L]⟩ (shapeCast ⟨2, ![R, 1]⟩ (multiReduction .add [1] ⟨1, ![R]⟩
          (exp (subf x (broadcastTo ⟨2, ![R, L]⟩ (shapeCast ⟨2, ![R, 1]⟩ (maximumf (broadcast ⟨1, ![R]⟩ (FloatOps.ofBits .f32 0xFF800000#32))
            (multiReduction .maximumf [1] ⟨1, ![R]⟩ x 0xFF800000#32 hr hφ hmax)) hc) hb)))
          0x00000000#32 hr hφ hadd) hc) hb)
        (ix2 p q)
      = rowSoftmax (fun k => x (ix2 p k)) q := by
  have hexp : ∀ c : Fin L,
      exp (subf x (broadcastTo ⟨2, ![R, L]⟩ (shapeCast ⟨2, ![R, 1]⟩ (maximumf (broadcast ⟨1, ![R]⟩ (FloatOps.ofBits .f32 0xFF800000#32))
          (multiReduction .maximumf [1] ⟨1, ![R]⟩ x 0xFF800000#32 hr hφ hmax)) hc) hb)) (ix2 p c)
        = Ideal.exp (x (ix2 p c) - rowTop fun k => x (ix2 p k)) := fun c =>
    congrArg (fun t => Ideal.exp (x (ix2 p c) - t)) (laneTop_apply x hr hφ hmax hc hb p c)
  rw [divf_apply, hexp q, broadcastTo_column_apply, shapeCast_column_apply, laneSum_apply]
  unfold rowSoftmax
  exact congrArg _ (Finset.sum_congr rfl fun c _ => hexp c)

/-! ## The host's spelling -/

/-- A rank-0 value broadcast to [R], at any entry. -/
theorem broadcastInDim_scalar_vec_apply {α : Type} (v : (⟨0, ![]⟩ : Shape).Idx → α)
    (h : (⟨0, ![]⟩ : Shape).BroadcastsInDim ⟨1, ![R]⟩ (![] : Fin 0 → Fin 1)) (p : Fin R) :
    broadcastInDim ⟨1, ![R]⟩ ![] h v (ix1 p) = v ix0 :=
  broadcastInDim_apply _ h v (ix1 p) ix0 fun a => a.elim0

/-- An [R] vector broadcast along axis 0 of a column [R, 1], at (p, z). -/
theorem broadcastInDim_vec_column_apply {α : Type} (v : (⟨1, ![R]⟩ : Shape).Idx → α)
    (h : (⟨1, ![R]⟩ : Shape).BroadcastsInDim ⟨2, ![R, 1]⟩ (![0] : Fin 1 → Fin 2)) (p : Fin R) (z : Fin 1) :
    broadcastInDim ⟨2, ![R, 1]⟩ ![0] h v (ix2 p z) = v (ix1 p) := by
  refine broadcastInDim_apply _ h v (ix2 p z) (ix1 p) fun a => ?_
  match a with
  | ⟨0, _⟩ =>
    show p.val = if R = 1 then 0 else p.val
    split
    · have := p.isLt; omega
    · rfl

/-- A column [R, 1] broadcast to [R, L] along both axes, at (p, c). -/
theorem broadcastInDim_column_apply {α : Type} (v : (⟨2, ![R, 1]⟩ : Shape).Idx → α)
    (h : (⟨2, ![R, 1]⟩ : Shape).BroadcastsInDim ⟨2, ![R, L]⟩ (![0, 1] : Fin 2 → Fin 2)) (p : Fin R) (c : Fin L) :
    broadcastInDim ⟨2, ![R, L]⟩ ![0, 1] h v (ix2 p c) = v (ix2 p (0 : Fin 1)) := by
  refine broadcastInDim_apply _ h v (ix2 p c) (ix2 p (0 : Fin 1)) fun a => ?_
  match a with
  | ⟨0, _⟩ =>
    show p.val = if R = 1 then 0 else p.val
    split
    · have := p.isLt; omega
    · rfl
  | ⟨1, _⟩ => rfl

/-- The host's sum over axis 1 at row p: the initial value plus the sum of the row. -/
theorem hostRowSum_apply {u : Shape} (x : (⟨2, ![R, L]⟩ : Shape).Idx → Ideal .f32) (init : u.Idx → Ideal .f32)
    (h' : Shape.ReducesTo ⟨2, ![R, L]⟩ [1] ⟨1, ![R]⟩) (h : Shape.Reduces ⟨2, ![R, L]⟩ [1] ⟨1, ![R]⟩)
    (hu : 0 < u.numel) (p : Fin R) :
    Host.reduceAdd x init h' hu (ix1 p) = init (Shape.Idx.first hu) + ∑ k : Fin L, x (ix2 p k) := by
  simp only [Host.reduceAdd, Ideal.hostReduceAdd_def]
  rw [Ideal.hostReduceAdd_single h' h]
  refine congrArg (_ + ·) (Finset.sum_congr rfl fun k _ => ?_)
  exact congrArg x (lift_row h p k)

/-- The host's row maximum, carried back to every entry of its row. -/
theorem hostTop_apply (x : (⟨2, ![R, L]⟩ : Shape).Idx → Ideal .f32)
    (h' : Shape.ReducesTo ⟨2, ![R, L]⟩ [1] ⟨1, ![R]⟩) (hr : Shape.Reduces ⟨2, ![R, L]⟩ [1] ⟨1, ![R]⟩)
    (hu : 0 < (⟨0, ![]⟩ : Shape).numel)
    (h0 : (⟨0, ![]⟩ : Shape).BroadcastsInDim ⟨1, ![R]⟩ (![] : Fin 0 → Fin 1))
    (h1 : (⟨1, ![R]⟩ : Shape).BroadcastsInDim ⟨2, ![R, 1]⟩ (![0] : Fin 1 → Fin 2))
    (h2 : (⟨2, ![R, 1]⟩ : Shape).BroadcastsInDim ⟨2, ![R, L]⟩ (![0, 1] : Fin 2 → Fin 2))
    (p : Fin R) (q : Fin L) :
    broadcastInDim ⟨2, ![R, L]⟩ ![0, 1] h2 (broadcastInDim ⟨2, ![R, 1]⟩ ![0] h1
        (maximumf (broadcastInDim ⟨1, ![R]⟩ ![] h0 (constant (F := Ideal) ⟨0, ![]⟩ .f32 0xFF800000#32))
          (Host.reduce FloatOps.maximumf x (constant (F := Ideal) ⟨0, ![]⟩ .f32 0xFF800000#32) h' hu))) (ix2 p q)
      = rowTop fun k => x (ix2 p k) := by
  rw [broadcastInDim_column_apply, broadcastInDim_vec_column_apply, maximumf_apply, broadcastInDim_scalar_vec_apply,
    hostRowMax_apply x _ h' hr hu p]
  rfl

/-- The host's softmax over axis 1, at (p, q). -/
theorem hostSoftmax_apply (x : (⟨2, ![R, L]⟩ : Shape).Idx → Ideal .f32)
    (h' : Shape.ReducesTo ⟨2, ![R, L]⟩ [1] ⟨1, ![R]⟩) (hr : Shape.Reduces ⟨2, ![R, L]⟩ [1] ⟨1, ![R]⟩)
    (hu : 0 < (⟨0, ![]⟩ : Shape).numel)
    (h0 : (⟨0, ![]⟩ : Shape).BroadcastsInDim ⟨1, ![R]⟩ (![] : Fin 0 → Fin 1))
    (h1 : (⟨1, ![R]⟩ : Shape).BroadcastsInDim ⟨2, ![R, 1]⟩ (![0] : Fin 1 → Fin 2))
    (h2 : (⟨2, ![R, 1]⟩ : Shape).BroadcastsInDim ⟨2, ![R, L]⟩ (![0, 1] : Fin 2 → Fin 2))
    (p : Fin R) (q : Fin L) :
    Host.divf
        (Host.exp (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu))))))
        (broadcastInDim ⟨2, ![R, L]⟩ ![0, 1] h2 (broadcastInDim ⟨2, ![R, 1]⟩ ![0] h1
          (Host.reduceAdd
            (Host.exp (subf x (broadcastInDim ⟨2, ![R, L]⟩ ![0, 1] h2 (broadcastInDim ⟨2, ![R, 1]⟩ ![0] h1
              (maximumf (broadcastInDim ⟨1, ![R]⟩ ![] h0 (constant (F := Ideal) ⟨0, ![]⟩ .f32 0xFF800000#32))
                (Host.reduce FloatOps.maximumf x (constant (F := Ideal) ⟨0, ![]⟩ .f32 0xFF800000#32) h' hu))))))
            (constant (F := Ideal) ⟨0, ![]⟩ .f32 0x00000000#32) h' hu)))
        (ix2 p q)
      = rowSoftmax (fun k => x (ix2 p k)) q := by
  have hexp : ∀ c : Fin L,
      Host.exp (subf x (broadcastInDim ⟨2, ![R, L]⟩ ![0, 1] h2 (broadcastInDim ⟨2, ![R, 1]⟩ ![0] h1
          (maximumf (broadcastInDim ⟨1, ![R]⟩ ![] h0 (constant (F := Ideal) ⟨0, ![]⟩ .f32 0xFF800000#32))
            (Host.reduce FloatOps.maximumf x (constant (F := Ideal) ⟨0, ![]⟩ .f32 0xFF800000#32) h' hu))))) (ix2 p c)
        = Ideal.exp (x (ix2 p c) - rowTop fun k => x (ix2 p k)) := fun c =>
    congrArg (fun t => Ideal.exp (x (ix2 p c) - t)) (hostTop_apply x h' hr hu h0 h1 h2 p c)
  show Ideal.div _ _ = _
  rw [hexp q, broadcastInDim_column_apply, broadcastInDim_vec_column_apply, hostRowSum_apply _ _ h' hr hu p]
  unfold rowSoftmax
  refine congrArg _ ?_
  rw [constant_apply, Ideal.ofBits_zero_f32, zero_add]
  exact Finset.sum_congr rfl fun c _ => hexp c

end Cert.Lib

end
-- ==== Proof.AttnSpec.lean ====
/-
  Scaled dot-product attention with a boolean mask and a blend with dependency scores, as functions of rows.
  For one query row q (D entries), the key rows K k, the mask bits and the dependency scores h k of that row:
    s k     = h k · (v k · ½) + (if masked k then −10⁹ else (Σ_d q d · K k d) · ⅛) · (v k · ½ + (1 − v k)),
              v k = 1 if h k > −10⁸ else 0,
    attn k  = the softmax of s along the row,
    ctx d   = Σ_k attn k · V k d.
  The division by √64 a host program spells is the product with the f32 word of ⅛ on every extended real, and the
  two ways programs spell the mask bit and the indicator v (a bit widened to a 32-bit word and compared with zero;
  a bit widened and read as a signed integer) denote the same values.
-/
import proofs.«149106_j44976897524605_1_alg».proof.Proof.LibRowSoftmax
import Idealize.ShloMosaic.PureOps.Ideal.Laws
import Idealize.ShloMosaic.Lib.ValueIdx

noncomputable section

namespace Cert.Attn

open Idealize.ShloMosaic Idealize.ShloMosaic.ValueIdx

/-! ## The constants -/

/-- The f32 word of 64 denotes 64. -/
theorem ofBits_64 : Ideal.ofBits .f32 0x42800000#32 = ((64 : ℝ) : EReal) := by
  simp [Ideal.ofBits, Ideal.ieee, -EReal.coe_mul]; norm_num

/-- The f32 word of ⅛ denotes ⅛. -/
theorem ofBits_eighth : Ideal.ofBits .f32 0x3E000000#32 = ((1 / 8 : ℝ) : EReal) := by
  simp [Ideal.ofBits, Ideal.ieee, -EReal.coe_mul]; norm_num

/-- √64 = 8 on the extended reals. -/
theorem sqrt_64 : Ideal.sqrt ((64 : ℝ) : EReal) = ((8 : ℝ) : EReal) := by
  show (if (64 : ℝ) < 0 then (⊥ : EReal) else (Real.sqrt 64 : EReal)) = _
  rw [if_neg (by norm_num)]
  have : Real.sqrt 64 = 8 := by
    rw [show (64 : ℝ) = 8 ^ 2 by norm_num]; exact Real.sqrt_sq (by norm_num)
  rw [this]

/-- Dividing by √64 is multiplying by the word of ⅛, on every extended real. -/
theorem div_sqrt_64 (d : EReal) :
    Ideal.div d (Ideal.sqrt (Ideal.ofBits .f32 0x42800000#32)) = d * Ideal.ofBits .f32 0x3E000000#32 := by
  rw [ofBits_64, sqrt_64, ofBits_eighth]
  exact Ideal.div_coe (by norm_num) d

/-- A bit widened to a word and read as a signed integer is the bit read as a natural number. -/
theorem sitofp_widen (b : BitVec 1) :
    (FloatOps.sitofp (F := Ideal) .f32 (b.setWidth 32) : EReal) = FloatOps.uitofp (F := Ideal) .f32 b := by
  have h : ∀ b : BitVec 1, ((b.setWidth 32).toInt : ℤ) = (b.toNat : ℤ) := by decide
  show (((b.setWidth 32).toInt : ℝ) : EReal) = ((b.toNat : ℝ) : EReal)
  have := h b
  rw [show ((b.setWidth 32).toInt : ℝ) = ((b.toNat : ℤ) : ℝ) by exact_mod_cast congrArg (fun z : ℤ => (z : ℝ)) this]
  norm_cast

/-- A bit widened to a word differs from zero exactly when the bit is set. -/
theorem ne_zero_widen (b : BitVec 1) : IntOp.cmpi .ne (b.setWidth 32) 0#32 = b := by
  revert b; decide

/-! ## One entry of the blended scores -/

/-- The indicator of a valid dependency score: 1 if h > −10⁸, else 0. -/
def valid (h : EReal) : EReal :=
  FloatOps.uitofp (F := Ideal) .f32 (FloatOps.cmpf (F := Ideal) (φ := .f32) .ogt h (Ideal.ofBits .f32 0xCCBEBC20#32))

/-- The blended score from the inner product d, the mask bit and the dependency score h. -/
def score (d : EReal) (mk : BitVec 1) (h : EReal) : EReal :=
  h * (valid h * Ideal.ofBits .f32 0x3F000000#32)
    + Scalar.select mk (Ideal.ofBits .f32 0xCE6E6B28#32) (d * Ideal.ofBits .f32 0x3E000000#32)
      * (valid h * Ideal.ofBits .f32 0x3F000000#32 + (Ideal.ofBits .f32 0x3F800000#32 - valid h))

/-- The same with the quotient by √64, as a host program spells it. -/
theorem score_of_div (d : EReal) (mk : BitVec 1) (h : EReal) :
    h * (valid h * Ideal.ofBits .f32 0x3F000000#32)
      + Scalar.select mk (Ideal.ofBits .f32 0xCE6E6B28#32) (Ideal.div d (Ideal.sqrt (Ideal.ofBits .f32 0x42800000#32)))
        * (valid h * Ideal.ofBits .f32 0x3F000000#32 + (Ideal.ofBits .f32 0x3F800000#32 - valid h))
      = score d mk h := by
  rw [div_sqrt_64]; rfl

/-- The same with the mask a 32-bit word compared with zero and the indicator read through a widened bit, as a
    block body spells it, when the word is the widened mask bit. -/
theorem score_of_word (d : EReal) (mk : BitVec 1) (w : BitVec 32) (hw : w = mk.setWidth 32) (h : EReal) :
    h * (FloatOps.sitofp (F := Ideal) .f32 ((FloatOps.cmpf (F := Ideal) (φ := .f32) .ogt h (Ideal.ofBits .f32 0xCCBEBC20#32)).setWidth 32)
          * Ideal.ofBits .f32 0x3F000000#32)
      + Scalar.select (IntOp.cmpi .ne w 0#32) (Ideal.ofBits .f32 0xCE6E6B28#32) (d * Ideal.ofBits .f32 0x3E000000#32)
        * (FloatOps.sitofp (F := Ideal) .f32 ((FloatOps.cmpf (F := Ideal) (φ := .f32) .ogt h (Ideal.ofBits .f32 0xCCBEBC20#32)).setWidth 32)
            * Ideal.ofBits .f32 0x3F000000#32
          + (Ideal.ofBits .f32 0x3F800000#32
            - FloatOps.sitofp (F := Ideal) .f32 ((FloatOps.cmpf (F := Ideal) (φ := .f32) .ogt h (Ideal.ofBits .f32 0xCCBEBC20#32)).setWidth 32)))
      = score d mk h := by
  subst hw
  rw [sitofp_widen, ne_zero_widen]; rfl

/-! ## Rows -/

variable {D L : Nat}

/-- The blended scores of one query row against every key row. -/
def scores (q : Fin D → EReal) (K : Fin L → Fin D → EReal) (mk : Fin L → BitVec 1) (hs : Fin L → EReal) : Fin L → EReal :=
  fun k => score (∑ d : Fin D, q d * K k d) (mk k) (hs k)

/-- The attention weights of one query row. -/
def attnRow (q : Fin D → EReal) (K : Fin L → Fin D → EReal) (mk : Fin L → BitVec 1) (hs : Fin L → EReal) : Fin L → EReal :=
  Cert.Lib.rowSoftmax (scores q K mk hs)

/-- The context vector of one query row. -/
def ctxRow (q : Fin D → EReal) (K : Fin L → Fin D → EReal) (mk : Fin L → BitVec 1) (hs : Fin L → EReal)
    (V : Fin L → Fin D → EReal) : Fin D → EReal :=
  fun d => ∑ k : Fin L, attnRow q K mk hs k * V k d

/-! ## Whole arrays: [4, 12, 1024, 64] queries, keys and values, [4, 12, 1024, 1024] mask and dependency scores -/

abbrev Sqkv : Shape := ⟨4, ![4, 12, 1024, 64]⟩
abbrev Sss : Shape := ⟨4, ![4, 12, 1024, 1024]⟩

/-- The attention weights: entry (b, h, s, k) is weight k of query row (b, h, s). -/
def attn4 (Q K : Sqkv.Idx → EReal) (M : Sss.Idx → BitVec 1) (H : Sss.Idx → EReal) : Sss.Idx → EReal :=
  fun i => attnRow (fun d => Q (ix4 (i 0) (i 1) (i 2) d)) (fun k d => K (ix4 (i 0) (i 1) k d))
    (fun k => M (ix4 (i 0) (i 1) (i 2) k)) (fun k => H (ix4 (i 0) (i 1) (i 2) k)) (i 3)

/-- The context: entry (b, h, s, d) is coordinate d of the context of query row (b, h, s). -/
def ctx4 (Q K V : Sqkv.Idx → EReal) (M : Sss.Idx → BitVec 1) (H : Sss.Idx → EReal) : Sqkv.Idx → EReal :=
  fun i => ctxRow (fun d => Q (ix4 (i 0) (i 1) (i 2) d)) (fun k d => K (ix4 (i 0) (i 1) k d))
    (fun k => M (ix4 (i 0) (i 1) (i 2) k)) (fun k => H (ix4 (i 0) (i 1) (i 2) k))
    (fun k d => V (ix4 (i 0) (i 1) k d)) (i 3)

/-! ## The same arrays with batch and head flattened: [48, 1024, 64] and [48, 1024, 1024] -/

abbrev S3qkv : Shape := ⟨3, ![48, 1024, 64]⟩
abbrev S3ss : Shape := ⟨3, ![48, 1024, 1024]⟩

/-- The attention weights over the flattened arrays: entry (g, s, k) is weight k of query row (g, s). -/
def attn3 (Q K : S3qkv.Idx → EReal) (M : S3ss.Idx → BitVec 1) (H : S3ss.Idx → EReal) : S3ss.Idx → EReal :=
  fun j => attnRow (fun d => Q (ix3 (j 0) (j 1) d)) (fun k d => K (ix3 (j 0) k d))
    (fun k => M (ix3 (j 0) (j 1) k)) (fun k => H (ix3 (j 0) (j 1) k)) (j 2)

/-- The context over the flattened arrays: entry (g, s, d) is coordinate d of the context of query row (g, s). -/
def ctx3 (Q K V : S3qkv.Idx → EReal) (M : S3ss.Idx → BitVec 1) (H : S3ss.Idx → EReal) : S3qkv.Idx → EReal :=
  fun j => ctxRow (fun d => Q (ix3 (j 0) (j 1) d)) (fun k d => K (ix3 (j 0) k d))
    (fun k => M (ix3 (j 0) (j 1) k)) (fun k => H (ix3 (j 0) (j 1) k))
    (fun k d => V (ix3 (j 0) k d)) (j 2)

end Cert.Attn

end
-- ==== Proof.LibDotRows.lean ====
/-
  A matrix product whose two operands are BOTH contracted over their axis 1: an [M, K] array against an [N, K] array
  (the right operand stored output-major, so that the product is A · Bᵀ without a transposition being computed).
  The library states the product's value as a sum over the dimension numbers' contraction index set of the operands at
  two computed operand indices. Here the contraction index is one coordinate `k`, and the operand indices are (r, k) and
  (c, k): entry (r, c) of the product is the sum over k of A (r, k) · B (c, k), the inner product of row r of A with
  row c of B. Stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row coordinate is the output's row coordinate. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column coordinate is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row coordinate is the output's column coordinate. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column coordinate is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The products themselves, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The host's rows × rows product at (r, c): the same sum. -/
theorem dotGeneral_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    Host.dotGeneral d prec A B (ix2 r c) = ∑ k : Fin K, A (ix2 r k) * B (ix2 c k) := by
  simp only [Host.dotGeneral]
  rw [Ideal.dotGeneral_apply]
  exact sum_contr_rr d hlc hrc hln hrn hlb hrb (fun a b => A a * B b) r c

end Cert.Lib

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KernelBlock.lean ====
/-
  One block of the kernel body at an index: with the 256 query rows of the block, all 1024 key and value rows, and the
  block's mask words and dependency scores, the body's two stored values at row p are the attention weights and the
  context of query row p.
-/
import proofs.«149106_j44976897524605_1_alg».proof.Proof.Gen.KernelIdeal.Skeleton
import proofs.«149106_j44976897524605_1_alg».proof.Proof.AttnSpec
import proofs.«149106_j44976897524605_1_alg».proof.Proof.LibDotRows
import proofs.«149106_j44976897524605_1_alg».proof.Proof.LibDotSum
import Idealize.ShloMosaic.Lib.Pipeline.Value

noncomputable section

namespace Cert.Attn.Block

open Idealize.ShloMosaic Idealize.ShloMosaic.ValueIdx Cert.KernelIdeal Cert.KernelIdeal.Gen

/-- A [1, a, b] block viewed as [a, b] reads (0, p, q) at (p, q). -/
theorem dropUnit_apply {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_three, Shape.rowMajor_val_two]
  show ((0 : ℕ) * a + p.val) * b + q.val = p.val * b + q.val
  rw [Nat.zero_mul, Nat.zero_add]

/-- An [a, b] array stored as a [1, a, b] block reads (p, q) at (0, p, q). -/
theorem addUnit_apply {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 (0 : Fin 1) p q) = v (ix2 p q) := by
  refine shapeCast_apply v h (ix3 (0 : Fin 1) p q) (ix2 p q) ?_
  rw [Shape.rowMajor_val_three, Shape.rowMajor_val_two]
  show p.val * b + q.val = ((0 : ℕ) * a + p.val) * b + q.val
  rw [Nat.zero_mul, Nat.zero_add]

/-- The blended scores of the block, as the body computes them from the four loads. -/
def blend (v0 : Vec Ideal S1x256x64 .f32) (v3 : Vec Ideal S1x1024x64 .f32) (v9 : Vec Ideal S1x256x1024 .i32)
    (v14 : Vec Ideal S1x256x1024 .f32) : FVec Ideal S256x1024 .f32 :=
  have v1 : FVec Ideal S256x64 .f32 := shapeCast S256x64 v0 shapeCasts_S1x256x64_S256x64
  have v2 : FVec Ideal S256x64 .bf16 := truncf .bf16 v1 bitsLt_bf16_f32
  have v4 : FVec Ideal S1024x64 .f32 := shapeCast S1024x64 v3 shapeCasts_S1x1024x64_S1024x64
  have v5 : FVec Ideal S1024x64 .bf16 := truncf .bf16 v4 bitsLt_bf16_f32
  have cst : FVec Ideal S256x1024 .f32 := constant S256x1024 .f32 0x00000000#32
  have v6 : FVec Ideal S256x1024 .f32 := matmul dot_S256x64_S1024x64_S256x1024_1_1_0_0_n_n none v2 v5 cst
  have cst_5 : Ideal .f32 := Scalar.ofBits .f32 0x3E000000#32
  have v7 : FVec Ideal S256x1024 .f32 := broadcast S256x1024 cst_5
  have v8 : FVec Ideal S256x1024 .f32 := mulf v6 v7
  have v10 : IVec S256x1024 32 := shapeCast S256x1024 v9 shapeCasts_S1x256x1024_S256x1024
  have cst_9 : IVec S256x1024 32 := constantI S256x1024 32 0#32
  have v11 : IVec S256x1024 1 := cmpi .ne v10 cst_9
  have cst_10 : Ideal .f32 := Scalar.ofBits .f32 0xCE6E6B28#32
  have v12 : FVec Ideal S256x1024 .f32 := broadcast S256x1024 cst_10
  have v13 : FVec Ideal S256x1024 .f32 := select v11 v12 v8
  have v15 : FVec Ideal S256x1024 .f32 := shapeCast S256x1024 v14 shapeCasts_S1x256x1024_S256x1024
  have cst_14 : Ideal .f32 := Scalar.ofBits .f32 0xCCBEBC20#32
  have v16 : FVec Ideal S256x1024 .f32 := broadcast S256x1024 cst_14
  have v17 : IVec S256x1024 1 := cmpf .ogt v15 v16
  have v18 : IVec S256x1024 32 := extui 32 v17 natLt_1_32
  have v19 : FVec Ideal S256x1024 .f32 := sitofp .f32 v18
  have cst_15 : Ideal .f32 := Scalar.ofBits .f32 0x3F000000#32
  have v20 : FVec Ideal S256x1024 .f32 := broadcast S256x1024 cst_15
  have v21 : FVec Ideal S256x1024 .f32 := mulf v19 v20
  have cst_16 : Ideal .f32 := Scalar.ofBits .f32 0x3F000000#32
  have v22 : FVec Ideal S256x1024 .f32 := broadcast S256x1024 cst_16
  have v23 : FVec Ideal S256x1024 .f32 := mulf v19 v22
  have cst_17 : Ideal .f32 := Scalar.ofBits .f32 0x3F800000#32
  have v24 : FVec Ideal S256x1024 .f32 := broadcast S256x1024 cst_17
  have v25 : FVec Ideal S256x1024 .f32 := subf v24 v19
  have v26 : FVec Ideal S256x1024 .f32 := addf v23 v25
  have v27 : FVec Ideal S256x1024 .f32 := mulf v15 v21
  have v28 : FVec Ideal S256x1024 .f32 := mulf v13 v26
  have v29 : FVec Ideal S256x1024 .f32 := addf v27 v28
  v29

/-- The body's shifted scores are the blended scores minus each row's maximum carried over the lanes. -/
theorem pay4_eq (x0 : Vec Ideal S1x256x64 .f32) (x1 : Vec Ideal S1x1024x64 .f32) (x3 : Vec Ideal S1x256x1024 .i32)
    (x4 : Vec Ideal S1x256x1024 .f32) :
    k0_pay4 (F := Ideal) x0 x1 x3 x4
      = subf (blend x0 x1 x3 x4)
          (broadcastTo S256x1024 (shapeCast S256x1 (maximumf (broadcast S256 (FloatOps.ofBits .f32 0xFF800000#32))
            (multiReduction (F := Ideal) .maximumf [1] S256 (blend x0 x1 x3 x4) 0xFF800000#32 reduces_S256x1024_S256 (.inl rfl) rfl))
            shapeCasts_S256_S256x1) broadcasts_S256x1_S256x1024) := rfl

/-- The inner products of the block's query rows with every key row. -/
def qk (v0 : Vec Ideal S1x256x64 .f32) (v3 : Vec Ideal S1x1024x64 .f32) : FVec Ideal S256x1024 .f32 :=
  matmul dot_S256x64_S1024x64_S256x1024_1_1_0_0_n_n none
    (truncf .bf16 (shapeCast S256x64 v0 shapeCasts_S1x256x64_S256x64) bitsLt_bf16_f32)
    (truncf .bf16 (shapeCast S1024x64 v3 shapeCasts_S1x1024x64_S1024x64) bitsLt_bf16_f32)
    (constant S256x1024 .f32 0x00000000#32)

/-- Entry (p, k) of the product is the inner product of query row p with key row k. -/
theorem qk_apply (x0 : Vec Ideal S1x256x64 .f32) (x1 : Vec Ideal S1x1024x64 .f32) (p : Fin 256) (k : Fin 1024) :
    qk x0 x1 (ix2 p k) = ∑ d : Fin 64, x0 (ix3 (0 : Fin 1) p d) * x1 (ix3 (0 : Fin 1) k d) := by
  refine (Cert.Lib.matmul_rr_apply dot_S256x64_S1024x64_S256x1024_1_1_0_0_n_n rfl rfl rfl rfl rfl rfl none _ _ p k).trans ?_
  refine Finset.sum_congr rfl fun d _ => ?_
  exact congrArg₂ (· * ·) (dropUnit_apply x0 shapeCasts_S1x256x64_S256x64 p d)
    (dropUnit_apply x1 shapeCasts_S1x1024x64_S1024x64 k d)

/-- Entry (p, k) of the blended scores is the blended score of query row p against key row k. -/
theorem blend_apply (x0 : Vec Ideal S1x256x64 .f32) (x1 : Vec Ideal S1x1024x64 .f32) (x3 : Vec Ideal S1x256x1024 .i32)
    (x4 : Vec Ideal S1x256x1024 .f32) (mk : Fin 1024 → BitVec 1) (p : Fin 256)
    (hmk : ∀ k : Fin 1024, x3 (ix3 (0 : Fin 1) p k) = (mk k).setWidth 32) (k : Fin 1024) :
    blend x0 x1 x3 x4 (ix2 p k)
      = Cert.Attn.scores (fun d : Fin 64 => x0 (ix3 (0 : Fin 1) p d)) (fun (k : Fin 1024) (d : Fin 64) => x1 (ix3 (0 : Fin 1) k d))
          mk (fun k : Fin 1024 => x4 (ix3 (0 : Fin 1) p k)) k := by
  have h3 : shapeCast S256x1024 x3 shapeCasts_S1x256x1024_S256x1024 (ix2 p k) = (mk k).setWidth 32 :=
    (dropUnit_apply x3 shapeCasts_S1x256x1024_S256x1024 p k).trans (hmk k)
  have h4 : shapeCast S256x1024 x4 shapeCasts_S1x256x1024_S256x1024 (ix2 p k) = x4 (ix3 (0 : Fin 1) p k) :=
    dropUnit_apply x4 shapeCasts_S1x256x1024_S256x1024 p k
  refine (Cert.Attn.score_of_word (qk x0 x1 (ix2 p k)) (mk k) _ h3
    (shapeCast S256x1024 x4 shapeCasts_S1x256x1024_S256x1024 (ix2 p k))).trans ?_
  exact congrArg₂ (fun d h => Cert.Attn.score d (mk k) h) (qk_apply x0 x1 p k) h4

/-- The body's weights before the recast, at (p, q): the row softmax of row p of the blended scores. -/
theorem pay1_apply (x0 : Vec Ideal S1x256x64 .f32) (x1 : Vec Ideal S1x1024x64 .f32) (x3 : Vec Ideal S1x256x1024 .i32)
    (x4 : Vec Ideal S1x256x1024 .f32) (p : Fin 256) (q : Fin 1024) :
    k0_pay1 (F := Ideal) (k0_pay4 (F := Ideal) x0 x1 x3 x4) (ix2 p q)
      = Cert.Lib.rowSoftmax (fun k => blend x0 x1 x3 x4 (ix2 p k)) q :=
  (congrArg (fun v => k0_pay1 (F := Ideal) v (ix2 p q)) (pay4_eq x0 x1 x3 x4)).trans
    (Cert.Lib.laneSoftmax_apply (blend x0 x1 x3 x4) reduces_S256x1024_S256 (.inl rfl) rfl rfl
      shapeCasts_S256_S256x1 broadcasts_S256x1_S256x1024 p q)

/-- The same weights are the attention weights of query row p. -/
theorem pay1_attn (x0 : Vec Ideal S1x256x64 .f32) (x1 : Vec Ideal S1x1024x64 .f32) (x3 : Vec Ideal S1x256x1024 .i32)
    (x4 : Vec Ideal S1x256x1024 .f32) (mk : Fin 1024 → BitVec 1) (p : Fin 256)
    (hmk : ∀ k : Fin 1024, x3 (ix3 (0 : Fin 1) p k) = (mk k).setWidth 32) (q : Fin 1024) :
    k0_pay1 (F := Ideal) (k0_pay4 (F := Ideal) x0 x1 x3 x4) (ix2 p q)
      = Cert.Attn.attnRow (fun d : Fin 64 => x0 (ix3 (0 : Fin 1) p d)) (fun (k : Fin 1024) (d : Fin 64) => x1 (ix3 (0 : Fin 1) k d))
          mk (fun k : Fin 1024 => x4 (ix3 (0 : Fin 1) p k)) q :=
  (pay1_apply x0 x1 x3 x4 p q).trans
    (congrArg (fun f => Cert.Lib.rowSoftmax f q) (funext (blend_apply x0 x1 x3 x4 mk p hmk)))

/-- The product of the weights with the value rows, before the recast. -/
def wv (v35 : FVec Ideal S256x1024 .f32) (v44 : Vec Ideal S1x1024x64 .f32) : FVec Ideal S256x64 .f32 :=
  matmul dot_S256x1024_S1024x64_S256x64_1_0_0_1_n_n none
    (truncf .bf16 (k0_pay1 (F := Ideal) v35) bitsLt_bf16_f32)
    (truncf .bf16 (shapeCast S1024x64 v44 shapeCasts_S1x1024x64_S1024x64) bitsLt_bf16_f32)
    (constant S256x64 .f32 0x00000000#32)

/-- Entry (p, d) of that product: the sum over the key rows of weight times value coordinate. -/
theorem wv_apply (v35 : FVec Ideal S256x1024 .f32) (x2 : Vec Ideal S1x1024x64 .f32) (p : Fin 256) (d : Fin 64) :
    wv v35 x2 (ix2 p d) = ∑ k : Fin 1024, k0_pay1 (F := Ideal) v35 (ix2 p k) * x2 (ix3 (0 : Fin 1) k d) := by
  refine (Cert.Lib.matmul_rc_apply dot_S256x1024_S1024x64_S256x64_1_0_0_1_n_n rfl rfl rfl rfl rfl rfl none
    (truncf .bf16 (k0_pay1 (F := Ideal) v35) bitsLt_bf16_f32)
    (truncf .bf16 (shapeCast S1024x64 x2 shapeCasts_S1x1024x64_S1024x64) bitsLt_bf16_f32) p d).trans ?_
  refine Finset.sum_congr rfl fun k _ => ?_
  exact congrArg (k0_pay1 (F := Ideal) v35 (ix2 p k) * ·) (dropUnit_apply x2 shapeCasts_S1x1024x64_S1024x64 k d)

/-- The stored attention block at (0, p, q): weight q of query row p, when the mask words of row p are the widened bits `mk`. -/
theorem pay_attn (x0 : Vec Ideal S1x256x64 .f32) (x1 : Vec Ideal S1x1024x64 .f32) (x3 : Vec Ideal S1x256x1024 .i32)
    (x4 : Vec Ideal S1x256x1024 .f32) (mk : Fin 1024 → BitVec 1) (p : Fin 256)
    (hmk : ∀ k : Fin 1024, x3 (ix3 (0 : Fin 1) p k) = (mk k).setWidth 32) (q : Fin 1024) :
    k0_pay2 (F := Ideal) (k0_pay4 (F := Ideal) x0 x1 x3 x4) (ix3 (0 : Fin 1) p q)
      = Cert.Attn.attnRow (fun d : Fin 64 => x0 (ix3 (0 : Fin 1) p d)) (fun (k : Fin 1024) (d : Fin 64) => x1 (ix3 (0 : Fin 1) k d))
          mk (fun k : Fin 1024 => x4 (ix3 (0 : Fin 1) p k)) q := by
  refine (addUnit_apply (k0_pay1 (F := Ideal) (k0_pay4 (F := Ideal) x0 x1 x3 x4)) shapeCasts_S256x1024_S1x256x1024 p q).trans ?_
  exact pay1_attn x0 x1 x3 x4 mk p hmk q

/-- The stored context block at (0, p, d): coordinate d of the context of query row p. -/
theorem pay_ctx (x0 : Vec Ideal S1x256x64 .f32) (x1 x2 : Vec Ideal S1x1024x64 .f32) (x3 : Vec Ideal S1x256x1024 .i32)
    (x4 : Vec Ideal S1x256x1024 .f32) (mk : Fin 1024 → BitVec 1) (p : Fin 256)
    (hmk : ∀ k : Fin 1024, x3 (ix3 (0 : Fin 1) p k) = (mk k).setWidth 32) (d : Fin 64) :
    k0_pay3 (F := Ideal) (k0_pay4 (F := Ideal) x0 x1 x3 x4) x2 (ix3 (0 : Fin 1) p d)
      = Cert.Attn.ctxRow (fun d : Fin 64 => x0 (ix3 (0 : Fin 1) p d)) (fun (k : Fin 1024) (d : Fin 64) => x1 (ix3 (0 : Fin 1) k d))
          mk (fun k : Fin 1024 => x4 (ix3 (0 : Fin 1) p k)) (fun (k : Fin 1024) (d : Fin 64) => x2 (ix3 (0 : Fin 1) k d)) d := by
  refine (addUnit_apply (wv (k0_pay4 (F := Ideal) x0 x1 x3 x4) x2) shapeCasts_S256x64_S1x256x64 p d).trans ?_
  refine (wv_apply (k0_pay4 (F := Ideal) x0 x1 x3 x4) x2 p d).trans ?_
  exact Finset.sum_congr rfl fun k _ =>
    congrArg (· * x2 (ix3 (0 : Fin 1) k d)) (pay1_attn x0 x1 x3 x4 mk p hmk k)

end Cert.Attn.Block

end
-- ==== Proof.KernelPoint.lean ====
/-
  One grid point of the attention kernel against the flattened arrays. The block the body works on at a point holds
  256 consecutive query rows s₀ … s₀ + 255 of one batch·head g: its query block is rows s₀ + p of Q (g, ·, ·), its key and
  value blocks are all of K (g, ·, ·) and V (g, ·, ·), its mask words and dependency scores are rows s₀ + p of the widened
  mask and of H. Then what the body stores at (0, p, q) is entry (g, s₀ + p, q) of the attention weights, and at
  (0, p, d) entry (g, s₀ + p, d) of the context, over the flattened arrays.
-/
import proofs.«149106_j44976897524605_1_alg».proof.Proof.KernelBlock

noncomputable section

namespace Cert.Attn.Block

open Idealize.ShloMosaic Idealize.ShloMosaic.ValueIdx Cert.KernelIdeal Cert.KernelIdeal.Gen

/-- An index of a [48, 1024, n] array from its coordinates' values. -/
theorem idx3_eq {n : Nat} (j : (⟨3, ![48, 1024, n]⟩ : Shape).Idx) (g : Fin 48) (s : Fin 1024) (x : Fin n)
    (h0 : (j 0).val = g.val) (h1 : (j 1).val = s.val) (h2 : (j 2).val = x.val) : j = ix3 g s x := by
  funext a
  apply Fin.ext
  match a with
  | ⟨0, _⟩ => exact h0
  | ⟨1, _⟩ => exact h1
  | ⟨2, _⟩ => exact h2

/-- The stored attention block of a point is its part of the weights over the flattened arrays. -/
theorem attn_point (x0 : Vec Ideal S1x256x64 .f32) (x1 : Vec Ideal S1x1024x64 .f32) (x3 : Vec Ideal S1x256x1024 .i32)
    (x4 : Vec Ideal S1x256x1024 .f32)
    (Q3 K3 : Cert.Attn.S3qkv.Idx → EReal) (M3 : Cert.Attn.S3ss.Idx → BitVec 1) (H3 : Cert.Attn.S3ss.Idx → EReal)
    (g : Fin 48) (s0 : Nat) (hs0 : s0 + 256 ≤ 1024)
    (h0 : ∀ (p : Fin 256) (d : Fin 64), x0 (ix3 (0 : Fin 1) p d) = Q3 (ix3 g ⟨s0 + p.val, by omega⟩ d))
    (h1 : ∀ (k : Fin 1024) (d : Fin 64), x1 (ix3 (0 : Fin 1) k d) = K3 (ix3 g k d))
    (h3 : ∀ (p : Fin 256) (k : Fin 1024), x3 (ix3 (0 : Fin 1) p k) = (M3 (ix3 g ⟨s0 + p.val, by omega⟩ k)).setWidth 32)
    (h4 : ∀ (p : Fin 256) (k : Fin 1024), x4 (ix3 (0 : Fin 1) p k) = H3 (ix3 g ⟨s0 + p.val, by omega⟩ k))
    (y : S1x256x1024.Idx) (j : Cert.Attn.S3ss.Idx)
    (hj0 : (j 0).val = g.val) (hj1 : (j 1).val = s0 + (y 1).val) (hj2 : (j 2).val = (y 2).val) :
    k0_pay2 (F := Ideal) (k0_pay4 (F := Ideal) x0 x1 x3 x4) y = Cert.Attn.attn3 Q3 K3 M3 H3 j := by
  obtain ⟨z, p, q, rfl⟩ : ∃ (z : Fin 1) (p : Fin 256) (q : Fin 1024), y = ix3 z p q := ⟨y 0, y 1, y 2, eq_ix3 y⟩
  obtain rfl : z = 0 := Fin.eq_zero z
  rw [idx3_eq j g ⟨s0 + p.val, by have := p.isLt; omega⟩ q hj0 hj1 hj2]
  rw [pay_attn x0 x1 x3 x4 (fun k => M3 (ix3 g ⟨s0 + p.val, by omega⟩ k)) p (fun k => h3 p k) q]
  show Cert.Attn.attnRow _ _ _ _ q = Cert.Attn.attnRow _ _ _ _ q
  congr 1
  · funext d; exact h0 p d
  · funext k d; exact h1 k d
  · funext k; exact h4 p k

/-- The stored context block of a point is its part of the context over the flattened arrays. -/
theorem ctx_point (x0 : Vec Ideal S1x256x64 .f32) (x1 x2 : Vec Ideal S1x1024x64 .f32) (x3 : Vec Ideal S1x256x1024 .i32)
    (x4 : Vec Ideal S1x256x1024 .f32)
    (Q3 K3 V3 : Cert.Attn.S3qkv.Idx → EReal) (M3 : Cert.Attn.S3ss.Idx → BitVec 1) (H3 : Cert.Attn.S3ss.Idx → EReal)
    (g : Fin 48) (s0 : Nat) (hs0 : s0 + 256 ≤ 1024)
    (h0 : ∀ (p : Fin 256) (d : Fin 64), x0 (ix3 (0 : Fin 1) p d) = Q3 (ix3 g ⟨s0 + p.val, by omega⟩ d))
    (h1 : ∀ (k : Fin 1024) (d : Fin 64), x1 (ix3 (0 : Fin 1) k d) = K3 (ix3 g k d))
    (h2 : ∀ (k : Fin 1024) (d : Fin 64), x2 (ix3 (0 : Fin 1) k d) = V3 (ix3 g k d))
    (h3 : ∀ (p : Fin 256) (k : Fin 1024), x3 (ix3 (0 : Fin 1) p k) = (M3 (ix3 g ⟨s0 + p.val, by omega⟩ k)).setWidth 32)
    (h4 : ∀ (p : Fin 256) (k : Fin 1024), x4 (ix3 (0 : Fin 1) p k) = H3 (ix3 g ⟨s0 + p.val, by omega⟩ k))
    (y : S1x256x64.Idx) (j : Cert.Attn.S3qkv.Idx)
    (hj0 : (j 0).val = g.val) (hj1 : (j 1).val = s0 + (y 1).val) (hj2 : (j 2).val = (y 2).val) :
    k0_pay3 (F := Ideal) (k0_pay4 (F := Ideal) x0 x1 x3 x4) x2 y = Cert.Attn.ctx3 Q3 K3 V3 M3 H3 j := by
  obtain ⟨z, p, d, rfl⟩ : ∃ (z : Fin 1) (p : Fin 256) (d : Fin 64), y = ix3 z p d := ⟨y 0, y 1, y 2, eq_ix3 y⟩
  obtain rfl : z = 0 := Fin.eq_zero z
  rw [idx3_eq j g ⟨s0 + p.val, by have := p.isLt; omega⟩ d hj0 hj1 hj2]
  rw [pay_ctx x0 x1 x2 x3 x4 (fun k => M3 (ix3 g ⟨s0 + p.val, by omega⟩ k)) p (fun k => h3 p k) d]
  show Cert.Attn.ctxRow _ _ _ _ _ d = Cert.Attn.ctxRow _ _ _ _ _ d
  congr 1
  · funext d; exact h0 p d
  · funext k d; exact h1 k d
  · funext k; exact h4 p k
  · funext k d; exact h2 k d

end Cert.Attn.Block

end
-- ==== Proof.KernelArrays.lean ====
/-
  The arrays the attention kernel's region finds, and its grid. The host lines before the region flatten batch and head
  of the five arguments ([4, 12, 1024, ·] to [48, 1024, ·]) and widen the mask bits to 32-bit words; the grid has a point
  for each batch·head g and each quarter b of the 1024 query rows.
-/
import proofs.«149106_j44976897524605_1_alg».proof.Proof.Gen.KernelIdeal.Frame
import proofs.«149106_j44976897524605_1_alg».proof.Proof.AttnSpec
import proofs.«149106_j44976897524605_1_alg».proof.Proof.KernelPoint
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-! ## The arrays as the region finds them -/

/-- The queries, flattened. -/
theorem V_v0 (c : Dev nD) : (V m c main_v0 : S48x1024x64.Idx → EReal)
    = shapeCast S48x1024x64 (m ((c : Thread nD τ).loc main_arg0)) shapeCasts_S4x12x1024x64_S48x1024x64 := by
  show StableHlo.after hostOps0 (fun b => m (c, b)) (Proc.devRef .tc main_v0) = _
  after_results
  rfl
/-- The keys, flattened. -/
theorem V_v1 (c : Dev nD) : (V m c main_v1 : S48x1024x64.Idx → EReal)
    = shapeCast S48x1024x64 (m ((c : Thread nD τ).loc main_arg1)) shapeCasts_S4x12x1024x64_S48x1024x64 := by
  show StableHlo.after hostOps0 (fun b => m (c, b)) (Proc.devRef .tc main_v1) = _
  after_results
  rfl
/-- The values, flattened. -/
theorem V_v2 (c : Dev nD) : (V m c main_v2 : S48x1024x64.Idx → EReal)
    = shapeCast S48x1024x64 (m ((c : Thread nD τ).loc main_arg2)) shapeCasts_S4x12x1024x64_S48x1024x64 := by
  show StableHlo.after hostOps0 (fun b => m (c, b)) (Proc.devRef .tc main_v2) = _
  after_results
  rfl
/-- The mask bits, flattened. -/
theorem V_v3 (c : Dev nD) : (V m c main_v3 : S48x1024x1024.Idx → BitVec 1)
    = shapeCast S48x1024x1024 (m ((c : Thread nD τ).loc main_arg3)) shapeCasts_S4x12x1024x1024_S48x1024x1024 := by
  show StableHlo.after hostOps0 (fun b => m (c, b)) (Proc.devRef .tc main_v3) = _
  after_results
  rfl
/-- The dependency scores, flattened. -/
theorem V_v4 (c : Dev nD) : (V m c main_v4 : S48x1024x1024.Idx → EReal)
    = shapeCast S48x1024x1024 (m ((c : Thread nD τ).loc main_arg4)) shapeCasts_S4x12x1024x1024_S48x1024x1024 := by
  show StableHlo.after hostOps0 (fun b => m (c, b)) (Proc.devRef .tc main_v4) = _
  after_results
  rfl
/-- The mask words: each flattened mask bit widened to 32 bits. -/
theorem V_v5 (c : Dev nD) : (V m c main_v5 : S48x1024x1024.Idx → BitVec 32)
    = extui 32 (V m c main_v3 : S48x1024x1024.Idx → BitVec 1) natLt_1_32 := by
  rw [V_v3]
  show StableHlo.after hostOps0 (fun b => m (c, b)) (Proc.devRef .tc main_v5) = _
  after_results
  rfl

/-! ## What a grid point writes back -/

theorem hz3 : (![0, 0, 0] : Fin 3 → Nat) = fun _ => 0 := funext fun a => by fin_cases a <;> rfl

/-- The attention weights over the flattened arrays the region finds. -/
abbrev attnArr (c : Dev nD) : S48x1024x1024.Idx → EReal :=
  Cert.Attn.attn3 (V m c main_v0) (V m c main_v1) (V m c main_v3) (V m c main_v4)

/-- The context over the flattened arrays the region finds. -/
abbrev ctxArr (c : Dev nD) : S48x1024x64.Idx → EReal :=
  Cert.Attn.ctx3 (V m c main_v0) (V m c main_v1) (V m c main_v2) (V m c main_v3) (V m c main_v4)

/-- The block indices of the seven windows at a grid point (g, b) of the 48 × 4 grid: the query, mask, score and both
    output windows sit at block (g, b, 0), the key and value windows at block (g, 0, 0). -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 3) = win0_6.index t (0 : Fin 3) ∧ win0_4.index t (1 : Fin 3) = win0_6.index t (1 : Fin 3) ∧ win0_4.index t (2 : Fin 3) = 0
    ∧ win0_5.index t (0 : Fin 3) = win0_6.index t (0 : Fin 3) ∧ win0_5.index t (1 : Fin 3) = win0_6.index t (1 : Fin 3) ∧ win0_5.index t (2 : Fin 3) = 0
    ∧ win0_6.index t (2 : Fin 3) = 0 ∧ win0_6.index t (0 : Fin 3) ≤ 47 ∧ win0_6.index t (1 : Fin 3) ≤ 3 :=
  (by decide +kernel : ∀ t : Fin grid0.N, _)

/-- Every block (g, b, 0) is some point's. -/
theorem idx_onto : ∀ (g : Fin 48) (b : Fin 4), ∃ t : Fin cfg0.N, win0_6.index t = ![g.val, b.val, 0] :=
  (by decide +kernel : ∀ (g : Fin 48) (b : Fin 4), ∃ t : Fin grid0.N, win0_6.index t = ![g.val, b.val, 0])

end Cert.KernelIdeal.Hand
end
-- ==== Proof.KernelFlush.lean ====
/-
  From the blocks to the arrays. What a grid point (g, b) writes back of each output is the block at (g, b, 0) of ONE
  function of the flattened arrays: the attention weights, and the context. The 48 × 4 blocks tile both outputs, so after the
  region the two output arrays are those functions.
-/
import proofs.«149106_j44976897524605_1_alg».proof.Proof.KernelArrays

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- What point t writes back of the attention weights is block t of `attnArr`. -/
theorem flushed6_eq (c : Dev nD) (t : Fin cfg0.N) :
    (dats m 0 c).flushed 6 t = ((cfg0.win 6).blk t).view.read (Elt Ideal) (attnArr m c) := by
  show (cfg0.win 6).cut (grid0.coords t) ((dats m 0 c).after 6 t) = _
  rw [after0_6]
  unfold out0_6
  rw [View.canon_unit_zero hz3]
  simp only [View.ld_unit_zero (S := S1x256x64) hz3, View.ld_unit_zero (S := S1x1024x64) hz3, View.ld_unit_zero (S := S1x256x1024) hz3]
  obtain ⟨e00, e01, e02, e10, e11, e12, e20, e21, e22, e30, e31, e32, e40, e41, e42, e50, e51, e52, e62, b0, b1⟩ := idx_facts t
  funext y
  refine Cert.Attn.Block.attn_point (iblk m c 0 t) (iblk m c 1 t) (iblk m c 3 t) (iblk m c 4 t)
    (V m c main_v0) (V m c main_v1) (V m c main_v3) (V m c main_v4)
    ⟨win0_6.index t (0 : Fin 3), by omega⟩ (win0_6.index t (1 : Fin 3) * 256) (by omega) ?_ ?_ ?_ ?_ y
    (((cfg0.win 6).blk t).view.emb y) ?_ ?_ ?_
  · intro p d
    show V m c main_v0 (((cfg0.win 0).blk t).view.emb (ix3 (0 : Fin 1) p d)) = V m c main_v0 _
    congr 1
    funext a; apply Fin.ext
    match a with
    | ⟨0, _⟩ => show win0_0.index t (0 : Fin 3) * 1 + 1 * 0 = win0_6.index t (0 : Fin 3); omega
    | ⟨1, _⟩ => show win0_0.index t (1 : Fin 3) * 256 + 1 * p.val = win0_6.index t (1 : Fin 3) * 256 + p.val; omega
    | ⟨2, _⟩ => show win0_0.index t (2 : Fin 3) * 64 + 1 * d.val = d.val; omega
  · intro k d
    show V m c main_v1 (((cfg0.win 1).blk t).view.emb (ix3 (0 : Fin 1) k d)) = V m c main_v1 _
    congr 1
    funext a; apply Fin.ext
    match a with
    | ⟨0, _⟩ => show win0_1.index t (0 : Fin 3) * 1 + 1 * 0 = win0_6.index t (0 : Fin 3); omega
    | ⟨1, _⟩ => show win0_1.index t (1 : Fin 3) * 1024 + 1 * k.val = k.val; omega
    | ⟨2, _⟩ => show win0_1.index t (2 : Fin 3) * 64 + 1 * d.val = d.val; omega
  · intro p k
    show V m c main_v5 (((cfg0.win 3).blk t).view.emb (ix3 (0 : Fin 1) p k)) = _
    rw [V_v5]
    show (V m c main_v3 (((cfg0.win 3).blk t).view.emb (ix3 (0 : Fin 1) p k))).setWidth 32 = (V m c main_v3 _).setWidth 32
    congr 2
    funext a; apply Fin.ext
    match a with
    | ⟨0, _⟩ => show win0_3.index t (0 : Fin 3) * 1 + 1 * 0 = win0_6.index t (0 : Fin 3); omega
    | ⟨1, _⟩ => show win0_3.index t (1 : Fin 3) * 256 + 1 * p.val = win0_6.index t (1 : Fin 3) * 256 + p.val; omega
    | ⟨2, _⟩ => show win0_3.index t (2 : Fin 3) * 1024 + 1 * k.val = k.val; omega
  · intro p k
    show V m c main_v4 (((cfg0.win 4).blk t).view.emb (ix3 (0 : Fin 1) p k)) = V m c main_v4 _
    congr 1
    funext a; apply Fin.ext
    match a with
    | ⟨0, _⟩ => show win0_4.index t (0 : Fin 3) * 1 + 1 * 0 = win0_6.index t (0 : Fin 3); omega
    | ⟨1, _⟩ => show win0_4.index t (1 : Fin 3) * 256 + 1 * p.val = win0_6.index t (1 : Fin 3) * 256 + p.val; omega
    | ⟨2, _⟩ => show win0_4.index t (2 : Fin 3) * 1024 + 1 * k.val = k.val; omega
  · show win0_6.index t (0 : Fin 3) * 1 + 1 * (y 0).val = win0_6.index t (0 : Fin 3)
    have : (y 0).val < 1 := (y 0).isLt
    omega
  · show win0_6.index t (1 : Fin 3) * 256 + 1 * (y 1).val = win0_6.index t (1 : Fin 3) * 256 + (y 1).val
    omega
  · show win0_6.index t (2 : Fin 3) * 1024 + 1 * (y 2).val = (y 2).val
    omega

/-- What point t writes back of the context is block t of `ctxArr`. -/
theorem flushed5_eq (c : Dev nD) (t : Fin cfg0.N) :
    (dats m 0 c).flushed 5 t = ((cfg0.win 5).blk t).view.read (Elt Ideal) (ctxArr m c) := by
  show (cfg0.win 5).cut (grid0.coords t) ((dats m 0 c).after 5 t) = _
  rw [after0_5]
  unfold out0_5
  rw [View.canon_unit_zero hz3]
  simp only [View.ld_unit_zero (S := S1x256x64) hz3, View.ld_unit_zero (S := S1x1024x64) hz3, View.ld_unit_zero (S := S1x256x1024) hz3]
  obtain ⟨e00, e01, e02, e10, e11, e12, e20, e21, e22, e30, e31, e32, e40, e41, e42, e50, e51, e52, e62, b0, b1⟩ := idx_facts t
  funext y
  refine Cert.Attn.Block.ctx_point (iblk m c 0 t) (iblk m c 1 t) (iblk m c 2 t) (iblk m c 3 t) (iblk m c 4 t)
    (V m c main_v0) (V m c main_v1) (V m c main_v2) (V m c main_v3) (V m c main_v4)
    ⟨win0_6.index t (0 : Fin 3), by omega⟩ (win0_6.index t (1 : Fin 3) * 256) (by omega) ?_ ?_ ?_ ?_ ?_ y
    (((cfg0.win 5).blk t).view.emb y) ?_ ?_ ?_
  · intro p d
    show V m c main_v0 (((cfg0.win 0).blk t).view.emb (ix3 (0 : Fin 1) p d)) = V m c main_v0 _
    congr 1
    funext a; apply Fin.ext
    match a with
    | ⟨0, _⟩ => show win0_0.index t (0 : Fin 3) * 1 + 1 * 0 = win0_6.index t (0 : Fin 3); omega
    | ⟨1, _⟩ => show win0_0.index t (1 : Fin 3) * 256 + 1 * p.val = win0_6.index t (1 : Fin 3) * 256 + p.val; omega
    | ⟨2, _⟩ => show win0_0.index t (2 : Fin 3) * 64 + 1 * d.val = d.val; omega
  · intro k d
    show V m c main_v1 (((cfg0.win 1).blk t).view.emb (ix3 (0 : Fin 1) k d)) = V m c main_v1 _
    congr 1
    funext a; apply Fin.ext
    match a with
    | ⟨0, _⟩ => show win0_1.index t (0 : Fin 3) * 1 + 1 * 0 = win0_6.index t (0 : Fin 3); omega
    | ⟨1, _⟩ => show win0_1.index t (1 : Fin 3) * 1024 + 1 * k.val = k.val; omega
    | ⟨2, _⟩ => show win0_1.index t (2 : Fin 3) * 64 + 1 * d.val = d.val; omega
  · intro k d
    show V m c main_v2 (((cfg0.win 2).blk t).view.emb (ix3 (0 : Fin 1) k d)) = V m c main_v2 _
    congr 1
    funext a; apply Fin.ext
    match a with
    | ⟨0, _⟩ => show win0_2.index t (0 : Fin 3) * 1 + 1 * 0 = win0_6.index t (0 : Fin 3); omega
    | ⟨1, _⟩ => show win0_2.index t (1 : Fin 3) * 1024 + 1 * k.val = k.val; omega
    | ⟨2, _⟩ => show win0_2.index t (2 : Fin 3) * 64 + 1 * d.val = d.val; omega
  · intro p k
    show V m c main_v5 (((cfg0.win 3).blk t).view.emb (ix3 (0 : Fin 1) p k)) = _
    rw [V_v5]
    show (V m c main_v3 (((cfg0.win 3).blk t).view.emb (ix3 (0 : Fin 1) p k))).setWidth 32 = (V m c main_v3 _).setWidth 32
    congr 2
    funext a; apply Fin.ext
    match a with
    | ⟨0, _⟩ => show win0_3.index t (0 : Fin 3) * 1 + 1 * 0 = win0_6.index t (0 : Fin 3); omega
    | ⟨1, _⟩ => show win0_3.index t (1 : Fin 3) * 256 + 1 * p.val = win0_6.index t (1 : Fin 3) * 256 + p.val; omega
    | ⟨2, _⟩ => show win0_3.index t (2 : Fin 3) * 1024 + 1 * k.val = k.val; omega
  · intro p k
    show V m c main_v4 (((cfg0.win 4).blk t).view.emb (ix3 (0 : Fin 1) p k)) = V m c main_v4 _
    congr 1
    funext a; apply Fin.ext
    match a with
    | ⟨0, _⟩ => show win0_4.index t (0 : Fin 3) * 1 + 1 * 0 = win0_6.index t (0 : Fin 3); omega
    | ⟨1, _⟩ => show win0_4.index t (1 : Fin 3) * 256 + 1 * p.val = win0_6.index t (1 : Fin 3) * 256 + p.val; omega
    | ⟨2, _⟩ => show win0_4.index t (2 : Fin 3) * 1024 + 1 * k.val = k.val; omega
  · show win0_5.index t (0 : Fin 3) * 1 + 1 * (y 0).val = win0_6.index t (0 : Fin 3)
    have : (y 0).val < 1 := (y 0).isLt
    omega
  · show win0_5.index t (1 : Fin 3) * 256 + 1 * (y 1).val = win0_6.index t (1 : Fin 3) * 256 + (y 1).val
    omega
  · show win0_5.index t (2 : Fin 3) * 64 + 1 * (y 2).val = (y 2).val
    omega

/-! ## The blocks tile the outputs -/

/-- An index of the weights array is in point t's block iff each coordinate is in the block's range on its axis. -/
theorem mem_blk6 (t : Fin cfg0.N) (i : S48x1024x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v6_1).slice (win0_6.rect t)).set ↔ _
  rw [View.set_slice_whole, Rect.mem_set_unit]
  exact Iff.rfl

/-- The same for the context array. -/
theorem mem_blk5 (t : Fin cfg0.N) (i : S48x1024x64.Idx) :
    i ∈ ((cfg0.win 5).blk t).view.set ↔ ∀ a : Fin 3, win0_5.index t a * S1x256x64.size a ≤ (i a).val ∧ (i a).val < win0_5.index t a * S1x256x64.size a + S1x256x64.size a := by
  show i ∈ ((View.whole main_v6_0).slice (win0_5.rect t)).set ↔ _
  rw [View.set_slice_whole, Rect.mem_set_unit]
  exact Iff.rfl

/-- Every entry of the weights array is in the block of the point (i₀, ⌊i₁ / 256⌋). -/
theorem cover6 (i : S48x1024x1024.Idx) : ∃ t : Fin cfg0.N, (cfg0.win 6).flush t = true ∧ i ∈ ((cfg0.win 6).blk t).view.set := by
  have hi0 : (i 0).val < 48 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- Every entry of the context array is in the block of the point (i₀, ⌊i₁ / 256⌋). -/
theorem cover5 (i : S48x1024x64.Idx) : ∃ t : Fin cfg0.N, (cfg0.win 5).flush t = true ∧ i ∈ ((cfg0.win 5).blk t).view.set := by
  have hi0 : (i 0).val < 48 := (i 0).isLt
  have hi1 : (i 1).val < 1024 := (i 1).isLt
  have hi2 : (i 2).val < 64 := (i 2).isLt
  obtain ⟨t, ht⟩ := idx_onto ⟨(i 0).val, hi0⟩ ⟨(i 1).val / 256, by omega⟩
  obtain ⟨e00, e01, e02, e10, e11, e12, e20, e21, e22, e30, e31, e32, e40, e41, e42, e50, e51, e52, e62, b0, b1⟩ := idx_facts t
  have q0 : win0_6.index t (0 : Fin 3) = (i 0).val := congrFun ht 0
  have q1 : win0_6.index t (1 : Fin 3) = (i 1).val / 256 := congrFun ht 1
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

/-! ## The output arrays after the region -/

/-- The weights array after the region. -/
theorem final6 (c : Dev nD) : (dats m 0 c).arrAt 6 cfg0.N = attnArr m c :=
  (dats m 0 c).arrAt_eq_of_cover 6 (attnArr m c) (fun t _ => flushed6_eq m c t) cover6

/-- The context array after the region. -/
theorem final5 (c : Dev nD) : (dats m 0 c).arrAt 5 cfg0.N = ctxArr m c :=
  (dats m 0 c).arrAt_eq_of_cover 5 (ctxArr m c) (fun t _ => flushed5_eq m c t) cover5

end Cert.KernelIdeal.Hand
end
-- ==== Proof.Reshape.lean ====
/-
  Flattening batch and head: the attention weights and the context computed over the [48, 1024, ·] arrays that are the
  row-major recasts of [4, 12, 1024, ·] arrays, recast back, are the weights and the context over the original arrays.
  Entry (b, h, s, ·) of a [4, 12, 1024, ·] array is entry (12·b + h, s, ·) of its recast.
-/
import proofs.«149106_j44976897524605_1_alg».proof.Proof.AttnSpec
import Idealize.ShloMosaic.Lib.Pipeline.Value

noncomputable section

namespace Cert.Attn

open Idealize.ShloMosaic Idealize.ShloMosaic.ValueIdx

/-! ## One entry of a recast

Entry (b, h, s, x) of a [4, 12, 1024, n] array sits at row-major position ((b·12 + h)·1024 + s)·n + x, and so does
entry (b·12 + h, s, x) of a [48, 1024, n] array. -/

/-- The row number b·12 + h of the flattened arrays. -/
def flatRow (b : Fin 4) (h : Fin 12) : Fin 48 :=
  ⟨b.val * 12 + h.val, by have := b.isLt; have := h.isLt; omega⟩

/-- Entry (b·12 + h, s, x) of the [48, 1024, n] recast of a [4, 12, 1024, n] array is entry (b, h, s, x). -/
theorem flat_apply {α : Type} {n : Nat} (X : (⟨4, ![4, 12, 1024, n]⟩ : Shape).Idx → α)
    (hc : (⟨4, ![4, 12, 1024, n]⟩ : Shape).ShapeCasts ⟨3, ![48, 1024, n]⟩)
    (b : Fin 4) (h : Fin 12) (s : Fin 1024) (x : Fin n) :
    shapeCast ⟨3, ![48, 1024, n]⟩ X hc (ix3 (flatRow b h) s x) = X (ix4 b h s x) := by
  refine shapeCast_apply X hc _ _ ?_
  rw [Shape.rowMajor_val_three, Shape.rowMajor_val_four]
  rfl

/-- Entry (b, h, s, x) of the [4, 12, 1024, n] recast of a [48, 1024, n] array is entry (b·12 + h, s, x). -/
theorem unflat_apply {α : Type} {n : Nat} (Y : (⟨3, ![48, 1024, n]⟩ : Shape).Idx → α)
    (hc : (⟨3, ![48, 1024, n]⟩ : Shape).ShapeCasts ⟨4, ![4, 12, 1024, n]⟩)
    (b : Fin 4) (h : Fin 12) (s : Fin 1024) (x : Fin n) :
    shapeCast ⟨4, ![4, 12, 1024, n]⟩ Y hc (ix4 b h s x) = Y (ix3 (flatRow b h) s x) := by
  refine shapeCast_apply Y hc _ _ ?_
  rw [Shape.rowMajor_val_three, Shape.rowMajor_val_four]
  rfl

/-! ## The two statements -/

/-- The weights over the flattened arrays, recast to [4, 12, 1024, 1024], are the weights over the original arrays. -/
theorem attn3_reshape (Q K : Sqkv.Idx → EReal) (M : Sss.Idx → BitVec 1) (H : Sss.Idx → EReal)
    (hq : Sqkv.ShapeCasts S3qkv) (hs : Sss.ShapeCasts S3ss) (hb : S3ss.ShapeCasts Sss) :
    shapeCast Sss (attn3 (shapeCast S3qkv Q hq) (shapeCast S3qkv K hq) (shapeCast S3ss M hs) (shapeCast S3ss H hs)) hb
      = attn4 Q K M H := by
  funext i
  obtain ⟨b, h, s, k, rfl⟩ : ∃ b h s k, i = ix4 b h s k := ⟨_, _, _, _, eq_ix4 i⟩
  rw [unflat_apply _ hb b h s k]
  show attnRow (fun d => shapeCast S3qkv Q hq (ix3 (flatRow b h) s d))
      (fun k' d => shapeCast S3qkv K hq (ix3 (flatRow b h) k' d))
      (fun k' => shapeCast S3ss M hs (ix3 (flatRow b h) s k'))
      (fun k' => shapeCast S3ss H hs (ix3 (flatRow b h) s k')) k
    = attnRow (fun d => Q (ix4 b h s d)) (fun k' d => K (ix4 b h k' d))
      (fun k' => M (ix4 b h s k')) (fun k' => H (ix4 b h s k')) k
  simp only [flat_apply]

/-- The context over the flattened arrays, recast to [4, 12, 1024, 64], is the context over the original arrays. -/
theorem ctx3_reshape (Q K V : Sqkv.Idx → EReal) (M : Sss.Idx → BitVec 1) (H : Sss.Idx → EReal)
    (hq : Sqkv.ShapeCasts S3qkv) (hs : Sss.ShapeCasts S3ss) (hb : S3qkv.ShapeCasts Sqkv) :
    shapeCast Sqkv (ctx3 (shapeCast S3qkv Q hq) (shapeCast S3qkv K hq) (shapeCast S3qkv V hq) (shapeCast S3ss M hs)
        (shapeCast S3ss H hs)) hb
      = ctx4 Q K V M H := by
  funext i
  obtain ⟨b, h, s, x, rfl⟩ : ∃ b h s x, i = ix4 b h s x := ⟨_, _, _, _, eq_ix4 i⟩
  rw [unflat_apply _ hb b h s x]
  show ctxRow (fun d => shapeCast S3qkv Q hq (ix3 (flatRow b h) s d))
      (fun k' d => shapeCast S3qkv K hq (ix3 (flatRow b h) k' d))
      (fun k' => shapeCast S3ss M hs (ix3 (flatRow b h) s k'))
      (fun k' => shapeCast S3ss H hs (ix3 (flatRow b h) s k'))
      (fun k' d => shapeCast S3qkv V hq (ix3 (flatRow b h) k' d)) x
    = ctxRow (fun d => Q (ix4 b h s d)) (fun k' d => K (ix4 b h k' d))
      (fun k' => M (ix4 b h s k')) (fun k' => H (ix4 b h s k'))
      (fun k' d => V (ix4 b h k' d)) x
  simp only [flat_apply]

end Cert.Attn

end
-- ==== Proof.KernelRun.lean ====
/-
  The whole kernel program's run, read. After the region the two host lines recast the context and the weights from
  [48, 1024, ·] back to [4, 12, 1024, ·]; flattening, computing row by row and recasting back is computing over the original
  arrays, so the program's results are the context and the attention weights of its five arguments.
-/
import proofs.«149106_j44976897524605_1_alg».proof.Proof.KernelFlush
import proofs.«149106_j44976897524605_1_alg».proof.Proof.Reshape

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-! ## The host lines after the region -/

/-- The first result: the context array the region left, recast. -/
theorem tail_v7 (c : Dev nD) : Pipeline.afterTail₀ cfgs (dats m) 0 (V0 m) [hostOps1] c main_v7
    = shapeCast S4x12x1024x64 ((dats m 0 c).arrAt 5 cfg0.N) shapeCasts_S48x1024x64_S4x12x1024x64 := by
  unfold Pipeline.afterTail₀
  show StableHlo.after hostOps1 _ (Proc.devRef .tc main_v7) = _
  after_results
  exact congrArg (fun A : S48x1024x64.Idx → EReal => shapeCast S4x12x1024x64 A shapeCasts_S48x1024x64_S4x12x1024x64)
    (Pipeline.withArrays_arr spec0 launch0.win.arr_inj c (V0 m c) (fun w => (dats m 0 c).arrAt w cfg0.N) 5)

/-- The second result: the weights array the region left, recast. -/
theorem tail_v8 (c : Dev nD) : Pipeline.afterTail₀ cfgs (dats m) 0 (V0 m) [hostOps1] c main_v8
    = shapeCast S4x12x1024x1024 ((dats m 0 c).arrAt 6 cfg0.N) shapeCasts_S48x1024x1024_S4x12x1024x1024 := by
  unfold Pipeline.afterTail₀
  show StableHlo.after hostOps1 _ (Proc.devRef .tc main_v8) = _
  after_results
  exact congrArg (fun A : S48x1024x1024.Idx → EReal => shapeCast S4x12x1024x1024 A shapeCasts_S48x1024x1024_S4x12x1024x1024)
    (Pipeline.withArrays_arr spec0 launch0.win.arr_inj c (V0 m c) (fun w => (dats m 0 c).arrAt w cfg0.N) 6)

/-! ## The results as functions of the arguments -/

/-- The context the program returns, of its five arguments. -/
abbrev ctxOut (c : Dev nD) : S4x12x1024x64.Idx → EReal :=
  Cert.Attn.ctx4 (m ((c : Thread nD τ).loc main_arg0)) (m ((c : Thread nD τ).loc main_arg1)) (m ((c : Thread nD τ).loc main_arg2))
    (m ((c : Thread nD τ).loc main_arg3)) (m ((c : Thread nD τ).loc main_arg4))

/-- The attention weights the program returns, of its arguments. -/
abbrev attnOut (c : Dev nD) : S4x12x1024x1024.Idx → EReal :=
  Cert.Attn.attn4 (m ((c : Thread nD τ).loc main_arg0)) (m ((c : Thread nD τ).loc main_arg1))
    (m ((c : Thread nD τ).loc main_arg3)) (m ((c : Thread nD τ).loc main_arg4))

/-- The recast context array is the context of the arguments. -/
theorem out7 (c : Dev nD) :
    shapeCast S4x12x1024x64 ((dats m 0 c).arrAt 5 cfg0.N) shapeCasts_S48x1024x64_S4x12x1024x64 = ctxOut m c := by
  rw [final5]
  unfold ctxArr
  rw [V_v0, V_v1, V_v2, V_v3, V_v4]
  exact Cert.Attn.ctx3_reshape _ _ _ _ _ _ _ _

/-- The recast weights array is the attention weights of the arguments. -/
theorem out8 (c : Dev nD) :
    shapeCast S4x12x1024x1024 ((dats m 0 c).arrAt 6 cfg0.N) shapeCasts_S48x1024x1024_S4x12x1024x1024 = attnOut m c := by
  rw [final6]
  unfold attnArr
  rw [V_v0, V_v1, V_v3, V_v4]
  exact Cert.Attn.attn3_reshape _ _ _ _ _ _ _

/-! ## The run -/

/-- Every weakly fair execution of the program ends with the context and the attention weights of the arguments in its
    two results, and the arguments unchanged. -/
theorem run : θ_run defs (onTc (τ := τ) (main (F := Ideal))) ⟨m, fun _ => 0, ρ⟩ fun r => ∀ c : Dev nD,
      r.2.mem ((c.tc : Thread nD τ).loc main_v7) = ctxOut m c
      ∧ r.2.mem ((c.tc : Thread nD τ).loc main_v8) = attnOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans ((tail_v7 m c).trans (out7 m c)),
      ((h c).2 main_v8 (Pipeline.mem_restRefs_of main_v8 (by decide) (by decide))).trans ((tail_v8 m c).trans (out8 m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand
end
-- ==== Proof.RefValue.lean ====
/-
  The host program's two results, read at an index, are the attention weights and the context of the row functions:
  its weights at (b, h, s, k) are weight k of query row (b, h, s), and its context at (b, h, s, d) is coordinate d of that
  row's context.
-/
import proofs.«149106_j44976897524605_1_alg».proof.Proof.Gen.ReferenceIdeal.Read
import proofs.«149106_j44976897524605_1_alg».proof.Proof.AttnSpec

noncomputable section

namespace Cert.Attn.Ref

open Idealize.ShloMosaic Idealize.ShloMosaic.ValueIdx Cert.ReferenceIdeal Cert.ReferenceIdeal.Read

/-! ## Index functions of the host program at coordinates -/

theorem lidx_v0 (a : Fin 4) (b : Fin 12) (s k : Fin 1024) (d : Fin 64) :
    lidx_main_v0 (ix4 a b s k) d = ix4 a b s d :=
  funext fun c => Fin.ext (by match c with | ⟨0, _⟩ => rfl | ⟨1, _⟩ => rfl | ⟨2, _⟩ => rfl | ⟨3, _⟩ => rfl)

theorem ridx_v0 (a : Fin 4) (b : Fin 12) (s k : Fin 1024) (d : Fin 64) :
    ridx_main_v0 (ix4 a b s k) d = ix4 a b k d :=
  funext fun c => Fin.ext (by match c with | ⟨0, _⟩ => rfl | ⟨1, _⟩ => rfl | ⟨2, _⟩ => rfl | ⟨3, _⟩ => rfl)

/-- The host program's blended scores at (a, b, s, k) are entry k of the scores of query row (a, b, s). -/
theorem ref_scores (x0 x1 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal))
    (a : Fin 4) (b : Fin 12) (s k : Fin 1024) :
    val_main_v17 (F := Ideal) x0 x1 x3 x4 (ix4 a b s k)
      = scores (fun d => x0 (ix4 a b s d)) (fun k' d => x1 (ix4 a b k' d)) (fun k' => x3 (ix4 a b s k'))
          (fun k' => x4 (ix4 a b s k')) k := by
  have hd : val_main_v0 (F := Ideal) x0 x1 (ix4 a b s k) = ∑ d : Fin 64, x0 (ix4 a b s d) * x1 (ix4 a b k d) := by
    rw [val_main_v0_apply]
    exact Finset.sum_congr rfl fun d _ => by rw [lidx_v0, ridx_v0]
  simp only [val_main_v17_apply, val_main_v15_apply, val_main_v16_apply, val_main_v9_apply, val_main_v14_apply,
    val_main_v11_apply, val_main_v13_apply, val_main_v7_apply, val_main_v6_apply, val_main_v4_apply, val_main_v3_apply,
    val_main_v2_apply, val_main_v1_apply, val_main_cst_apply, val_main_call0_v0_apply, val_main_cst_0_apply,
    val_main_v5_apply, val_main_cst_1_apply, val_main_v8_apply, val_main_cst_2_apply, val_main_v10_apply,
    val_main_cst_3_apply, val_main_v12_apply, val_main_cst_4_apply, hd]
  exact score_of_div _ _ _

/-! ## The row maximum -/

theorem reduces_d3 : Shape.Reduces S4x12x1024x1024 [3] S4x12x1024 := by decide

/-- The index over (a, b, s) with k inserted on the last axis is (a, b, s, k). -/
theorem lift_d3 (h : Shape.Reduces S4x12x1024x1024 [3] S4x12x1024) (a : Fin 4) (b : Fin 12) (s k : Fin 1024) :
    h.lift (ix3 a b s) k = ix4 a b s k :=
  funext fun c => Fin.ext (by match c with | ⟨0, _⟩ => rfl | ⟨1, _⟩ => rfl | ⟨2, _⟩ => rfl | ⟨3, _⟩ => rfl)

theorem idx_v21_v22 (a : Fin 4) (b : Fin 12) (s k : Fin 1024) :
    idx_main_v21 (idx_main_v22 (ix4 a b s k)) = ix3 a b s :=
  funext fun c => Fin.ext (by match c with | ⟨0, _⟩ => rfl | ⟨1, _⟩ => rfl | ⟨2, _⟩ => rfl)

/-- The host program's maximum over the last axis at (a, b, s): the fold of max over the row of blended scores. -/
theorem ref_max (x0 x1 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal))
    (a : Fin 4) (b : Fin 12) (s : Fin 1024) :
    val_main_v18 (F := Ideal) x0 x1 x3 x4 (ix3 a b s)
      = (Finset.univ : Finset (Fin 1024)).fold max (Ideal.ofBits .f32 0xFF800000#32)
          (scores (fun d => x0 (ix4 a b s d)) (fun k' d => x1 (ix4 a b k' d)) (fun k' => x3 (ix4 a b s k'))
            (fun k' => x4 (ix4 a b s k'))) := by
  unfold val_main_v18
  rw [Host.reduce_eq_fold_single FloatOps.maximumf _ _ Gen.reducesTo_S4x12x1024x1024_S4x12x1024_d3 reduces_d3 Gen.h_S_]
  have e : (val_main_v17 (F := Ideal) x0 x1 x3 x4 ∘ reduces_d3.lift (ix3 a b s))
      = fun k : Fin (S4x12x1024x1024.size 3) => scores (fun d => x0 (ix4 a b s d)) (fun k' d => x1 (ix4 a b k' d))
          (fun k' => x3 (ix4 a b s k')) (fun k' => x4 (ix4 a b s k')) k :=
    funext fun k => (congrArg (val_main_v17 (F := Ideal) x0 x1 x3 x4) (lift_d3 reduces_d3 a b s k)).trans
      (ref_scores x0 x1 x3 x4 a b s k)
  rw [e]
  rfl

/-- The host program's broadcast row maximum at (a, b, s, k) is the top of the row of blended scores. -/
theorem ref_top (x0 x1 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal))
    (a : Fin 4) (b : Fin 12) (s k : Fin 1024) :
    val_main_v22 (F := Ideal) x0 x1 x3 x4 (ix4 a b s k)
      = Cert.Lib.rowTop (scores (fun d => x0 (ix4 a b s d)) (fun k' d => x1 (ix4 a b k' d)) (fun k' => x3 (ix4 a b s k'))
          (fun k' => x4 (ix4 a b s k'))) := by
  rw [val_main_v22_apply, val_main_v21_apply, idx_v21_v22, val_main_v20_apply, val_main_v19_apply, val_main_cst_6_apply,
    ref_max]
  rfl

/-! ## Exponentials, their sum, and the quotient -/

/-- The host program's exponentials at (a, b, s, k): exp of the blended score minus the row's top. -/
theorem ref_exp (x0 x1 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal))
    (a : Fin 4) (b : Fin 12) (s k : Fin 1024) :
    val_main_v24 (F := Ideal) x0 x1 x3 x4 (ix4 a b s k)
      = Ideal.exp (scores (fun d => x0 (ix4 a b s d)) (fun k' d => x1 (ix4 a b k' d)) (fun k' => x3 (ix4 a b s k'))
            (fun k' => x4 (ix4 a b s k')) k
          - Cert.Lib.rowTop (scores (fun d => x0 (ix4 a b s d)) (fun k' d => x1 (ix4 a b k' d))
              (fun k' => x3 (ix4 a b s k')) (fun k' => x4 (ix4 a b s k')))) := by
  rw [val_main_v24_apply, val_main_v23_apply, ref_scores, ref_top]
  rfl

theorem idx_v26_v27 (a : Fin 4) (b : Fin 12) (s k : Fin 1024) :
    idx_main_v26 (idx_main_v27 (ix4 a b s k)) = ix3 a b s :=
  funext fun c => Fin.ext (by match c with | ⟨0, _⟩ => rfl | ⟨1, _⟩ => rfl | ⟨2, _⟩ => rfl)

theorem idx_v25 (a : Fin 4) (b : Fin 12) (s k : Fin 1024) :
    idx_main_v25 (ix3 a b s) k = ix4 a b s k :=
  funext fun c => Fin.ext (by match c with | ⟨0, _⟩ => rfl | ⟨1, _⟩ => rfl | ⟨2, _⟩ => rfl | ⟨3, _⟩ => rfl)

/-- The host program's broadcast row sum at (a, b, s, k): the sum of the row's exponentials. -/
theorem ref_sum (x0 x1 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal))
    (a : Fin 4) (b : Fin 12) (s k : Fin 1024) :
    val_main_v27 (F := Ideal) x0 x1 x3 x4 (ix4 a b s k)
      = ∑ l : Fin 1024, Ideal.exp (scores (fun d => x0 (ix4 a b s d)) (fun k' d => x1 (ix4 a b k' d))
            (fun k' => x3 (ix4 a b s k')) (fun k' => x4 (ix4 a b s k')) l
          - Cert.Lib.rowTop (scores (fun d => x0 (ix4 a b s d)) (fun k' d => x1 (ix4 a b k' d))
              (fun k' => x3 (ix4 a b s k')) (fun k' => x4 (ix4 a b s k')))) := by
  rw [val_main_v27_apply, val_main_v26_apply, idx_v26_v27, val_main_v25_apply, val_main_cst_7_apply]
  show Ideal.ofBits .f32 0x00000000#32 + _ = _
  rw [Ideal.ofBits_zero_f32, zero_add]
  exact Finset.sum_congr rfl fun l _ => by rw [idx_v25, ref_exp]

/-- The host program's attention weights at (a, b, s, k): weight k of query row (a, b, s). -/
theorem ref_attn_apply (x0 x1 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal))
    (a : Fin 4) (b : Fin 12) (s k : Fin 1024) :
    val_main_v28 (F := Ideal) x0 x1 x3 x4 (ix4 a b s k)
      = attnRow (fun d => x0 (ix4 a b s d)) (fun k' d => x1 (ix4 a b k' d)) (fun k' => x3 (ix4 a b s k'))
          (fun k' => x4 (ix4 a b s k')) k := by
  rw [val_main_v28_apply, ref_exp, ref_sum]
  rfl

/-- The host program's attention weights are `attn4` of its arguments. -/
theorem ref_attn (x0 x1 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal)) :
    val_main_v28 (F := Ideal) x0 x1 x3 x4 = Cert.Attn.attn4 x0 x1 x3 x4 := by
  funext i
  obtain ⟨a, b, s, k, rfl⟩ : ∃ (a : Fin 4) (b : Fin 12) (s k : Fin 1024), i = ix4 a b s k :=
    ⟨i 0, i 1, i 2, i 3, eq_ix4 i⟩
  exact ref_attn_apply x0 x1 x3 x4 a b s k

theorem lidx_v29 (a : Fin 4) (b : Fin 12) (s : Fin 1024) (d : Fin 64) (k : Fin 1024) :
    lidx_main_v29 (ix4 a b s d) k = ix4 a b s k :=
  funext fun c => Fin.ext (by match c with | ⟨0, _⟩ => rfl | ⟨1, _⟩ => rfl | ⟨2, _⟩ => rfl | ⟨3, _⟩ => rfl)

theorem ridx_v29 (a : Fin 4) (b : Fin 12) (s : Fin 1024) (d : Fin 64) (k : Fin 1024) :
    ridx_main_v29 (ix4 a b s d) k = ix4 a b k d :=
  funext fun c => Fin.ext (by match c with | ⟨0, _⟩ => rfl | ⟨1, _⟩ => rfl | ⟨2, _⟩ => rfl | ⟨3, _⟩ => rfl)

/-- The host program's context at (a, b, s, d): coordinate d of the context of query row (a, b, s). -/
theorem ref_ctx_apply (x0 x1 x2 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal))
    (a : Fin 4) (b : Fin 12) (s : Fin 1024) (d : Fin 64) :
    val_main_v29 (F := Ideal) x0 x1 x2 x3 x4 (ix4 a b s d)
      = ctxRow (fun d' => x0 (ix4 a b s d')) (fun k' d' => x1 (ix4 a b k' d')) (fun k' => x3 (ix4 a b s k'))
          (fun k' => x4 (ix4 a b s k')) (fun k' d' => x2 (ix4 a b k' d')) d := by
  rw [val_main_v29_apply]
  unfold ctxRow
  exact Finset.sum_congr rfl fun k _ => by rw [lidx_v29, ridx_v29, ref_attn_apply]

/-- The host program's context is `ctx4` of its arguments. -/
theorem ref_ctx (x0 x1 x2 : (⟨S4x12x1024x64, .f32⟩ : BufTy).Contents (Elt Ideal))
    (x3 : (⟨S4x12x1024x1024, .i1⟩ : BufTy).Contents (Elt Ideal)) (x4 : (⟨S4x12x1024x1024, .f32⟩ : BufTy).Contents (Elt Ideal)) :
    val_main_v29 (F := Ideal) x0 x1 x2 x3 x4 = Cert.Attn.ctx4 x0 x1 x2 x3 x4 := by
  funext i
  obtain ⟨a, b, s, d, rfl⟩ : ∃ (a : Fin 4) (b : Fin 12) (s : Fin 1024) (d : Fin 64), i = ix4 a b s d :=
    ⟨i 0, i 1, i 2, i 3, eq_ix4 i⟩
  exact ref_ctx_apply x0 x1 x2 x3 x4 a b s d

end Cert.Attn.Ref

end
-- ==== Proof.lean ====
/-
  Scaled dot-product attention with a boolean mask and a blend with dependency scores: a kernel that works on blocks of
  256 query rows of one batch·head against a host program over the whole [4, 12, 1024, ·] arrays.
  Over the extended reals both compute, for every query row, the blended scores
    s k = h k · (v k · ½) + (if masked k then −10⁹ else (q · K k) · ⅛) · (v k · ½ + (1 − v k)),   v k = [h k > −10⁸],
  their softmax along the row, and the product of the weights with the value rows. The host program divides the inner
  products by √64 where the kernel multiplies by ⅛: the same on every extended real. The kernel flattens batch and head
  before its region and recasts its two outputs back after it; its blocks tile the outputs, so the arrays it leaves are
  the row functions applied along the flattened arrays, which recast back are the host program's results.
  The three frames are the generated ones (the host program's is its generated run with the results dropped); no
  rewriting was applied in idealizing the kernel, so there is nothing to preserve.
-/
import proofs.«149106_j44976897524605_1_alg».proof.Defs
import proofs.«149106_j44976897524605_1_alg».proof.Proof.Gen.Kernel
import proofs.«149106_j44976897524605_1_alg».proof.Proof.Gen.Kernel.Skeleton
import proofs.«149106_j44976897524605_1_alg».proof.Proof.Gen.Kernel.Launch
import proofs.«149106_j44976897524605_1_alg».proof.Proof.Gen.Kernel.Points
import proofs.«149106_j44976897524605_1_alg».proof.Proof.Gen.Kernel.Frame
import proofs.«149106_j44976897524605_1_alg».proof.Proof.Gen.KernelIdeal
import proofs.«149106_j44976897524605_1_alg».proof.Proof.Gen.KernelIdeal.Skeleton
import proofs.«149106_j44976897524605_1_alg».proof.Proof.Gen.KernelIdeal.Launch
import proofs.«149106_j44976897524605_1_alg».proof.Proof.Gen.KernelIdeal.Points
import proofs.«149106_j44976897524605_1_alg».proof.Proof.Gen.KernelIdeal.Frame
import proofs.«149106_j44976897524605_1_alg».proof.Proof.Gen.ReferenceIdeal
import proofs.«149106_j44976897524605_1_alg».proof.Proof.Gen.Pre_finite_inputs
import proofs.«149106_j44976897524605_1_alg».proof.Proof.Gen.ReferenceIdeal.Run
import proofs.«149106_j44976897524605_1_alg».proof.Proof.Gen.ReferenceIdeal.Read
import proofs.«149106_j44976897524605_1_alg».proof.Proof.KernelRun
import proofs.«149106_j44976897524605_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The host program runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the context and the attention weights of the (agreeing) arguments. -/
theorem algebraic : Cert.algebraic_KernelIdeal_ReferenceIdeal := by
  intro m ρ m' ρ' _ hagree
  refine ⟨fun c => Cert.KernelIdeal.Hand.ctxOut m c, fun c => Cert.KernelIdeal.Hand.attnOut m c,
    Cert.KernelIdeal.Hand.run m ρ, ?_⟩
  refine (θ_run Cert.ReferenceIdeal.defs _ _).mono (fun _ h c => ?_) (Cert.ReferenceIdeal.Value.run (F := Ideal) m' ρ')
  obtain ⟨e0, e1, e2, e3, e4⟩ := hagree c
  refine ⟨(h c).1.trans ?_, (h c).2.1.trans ?_, (h c).2.2⟩
  · rw [Cert.ReferenceIdeal.Read.val_main_v29_eq, Cert.Attn.Ref.ref_ctx, e0, e1, e2, e3, e4]
  · rw [Cert.ReferenceIdeal.Read.val_main_v28_eq, Cert.Attn.Ref.ref_attn, e0, e1, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
